-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x64 : Shape := ⟨2, ![16384, 64]⟩
abbrev S4096x128 : Shape := ⟨2, ![4096, 128]⟩
abbrev S4096x16384 : Shape := ⟨2, ![4096, 16384]⟩
abbrev S128x64 : Shape := ⟨2, ![128, 64]⟩
abbrev S64 : Shape := ⟨1, ![64]⟩
abbrev S_ : Shape := ⟨0, ![]⟩
abbrev S4096 : Shape := ⟨1, ![4096]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S4096x128 : S_.BroadcastsInDim S4096x128 (![] : Fin 0 → Fin S4096x128.rank)
  reducesTo_S4096x128_S_d0_1 : S4096x128.ReducesTo [0, 1] S_
  bcast_S_S4096x16384 : S_.BroadcastsInDim S4096x16384 (![] : Fin 0 → Fin S4096x16384.rank)
  reducesTo_S4096x16384_S_d0_1 : S4096x16384.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  natLt_1_32 : 1 < 32
  reducesTo_S4096x16384_S4096_d1 : S4096x16384.ReducesTo [1] S4096
  bcast_S_S4096 : S_.BroadcastsInDim S4096 (![] : Fin 0 → Fin S4096.rank)
  reducesTo_S4096_S_d0 : S4096.ReducesTo [0] S_

variable [Facts]

def fn_part3 {F : FTy → Type} [FloatOps F] (main_arg4 : IVec S4096x16384 32) (main_v49 : IVec S_ 1) (main_c_19 : IVec S_ 32) : IVec S_ 1 :=
  let main_v50 : IVec S4096x16384 32 := broadcastInDim S4096x16384 ![] bcast_S_S4096x16384 main_c_19
  let main_v51 : IVec S4096x16384 1 := cmpi .sgt main_arg4 main_v50
  let main_v52 : IVec S4096x16384 32 := (extui 32 · natLt_1_32) main_v51
  let main_c_20 : IVec S_ 32 := constantI S_ 32 0#32
  let main_v53 : IVec S4096 32 := (fun x v => Host.reduce IntOp.addi x v reducesTo_S4096x16384_S4096_d1 h_S_) main_v52 main_c_20
  let main_c_21 : IVec S_ 32 := constantI S_ 32 0#32
  let main_v54 : IVec S4096 32 := broadcastInDim S4096 ![] bcast_S_S4096 main_c_21
  let main_v55 : IVec S4096 1 := cmpi .sgt main_v53 main_v54
  let main_c_22 : IVec S_ 1 := constantI S_ 1 1#1
  let main_v56 : IVec S_ 1 := (fun x v => Host.reduce IntOp.andi x v reducesTo_S4096_S_d0 h_S_) main_v55 main_c_22
  let main_v57 : IVec S_ 1 := andi main_v49 main_v56
  main_v57

def fn_part2 {F : FTy → Type} [FloatOps F] (main_arg3 : FVec F S4096x16384 .f32) (main_arg4 : IVec S4096x16384 32) (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_cst_14 : FVec F S_ .f32 := constant S_ .f32 0x00000000#32
  let main_v39 : FVec F S4096x16384 .f32 := broadcastInDim S4096x16384 ![] bcast_S_S4096x16384 main_cst_14
  let main_v40 : IVec S4096x16384 1 := cmpf .ogt main_arg3 main_v39
  let main_c_15 : IVec S_ 1 := constantI S_ 1 1#1
  let main_v41 : IVec S_ 1 := (fun x v => Host.reduce IntOp.andi x v reducesTo_S4096x16384_S_d0_1 h_S_) main_v40 main_c_15
  let main_v42 : IVec S_ 1 := andi main_v38 main_v41
  let main_c_16 : IVec S_ 32 := constantI S_ 32 0#32
  let main_v43 : IVec S4096x16384 32 := broadcastInDim S4096x16384 ![] bcast_S_S4096x16384 main_c_16
  let main_v44 : IVec S4096x16384 1 := cmpi .eq main_arg4 main_v43
  let main_c_17 : IVec S_ 32 := constantI S_ 32 1#32
  let main_v45 : IVec S4096x16384 32 := broadcastInDim S4096x16384 ![] bcast_S_S4096x16384 main_c_17
  let main_v46 : IVec S4096x16384 1 := cmpi .eq main_arg4 main_v45
  let main_v47 : IVec S4096x16384 1 := ori main_v44 main_v46
  let main_c_18 : IVec S_ 1 := constantI S_ 1 1#1
  let main_v48 : IVec S_ 1 := (fun x v => Host.reduce IntOp.andi x v reducesTo_S4096x16384_S_d0_1 h_S_) main_v47 main_c_18
  let main_v49 : IVec S_ 1 := andi main_v42 main_v48
  let main_c_19 : IVec S_ 32 := constantI S_ 32 0#32
  fn_part3 (F := F) main_arg4 main_v49 main_c_19

def fn_part1 {F : FTy → Type} [FloatOps F] (main_arg3 : FVec F S4096x16384 .f32) (main_arg4 : IVec S4096x16384 32) (main_arg5 : FVec F S128x64 .f32) (main_arg6 : FVec F S64 .f32) (main_arg7 : FVec F S128x64 .f32) (main_arg8 : FVec F S64 .f32) (main_v13 : IVec S_ 1) (main_v16 : IVec S4096x16384 1) : IVec S_ 1 :=
  let main_c_5 : IVec S_ 1 := constantI S_ 1 1#1
  let main_v17 : IVec S_ 1 := (fun x v => Host.reduce IntOp.andi x v reducesTo_S4096x16384_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg3 main_arg4 main_arg8 main_v33

def fn {F : FTy → Type} [FloatOps F] (main_arg0 : FVec F S16384x128 .f32) (main_arg1 : FVec F S16384x64 .f32) (main_arg2 : FVec F S4096x128 .f32) (main_arg3 : FVec F S4096x16384 .f32) (main_arg4 : IVec S4096x16384 32) (main_arg5 : FVec F S128x64 .f32) (main_arg6 : FVec F S64 .f32) (main_arg7 : FVec F S128x64 .f32) (main_arg8 : FVec F S64 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x16384 .f32 := Host.absf main_arg3
  let main_cst_4 : FVec F S_ .f32 := constant S_ .f32 0x7F800000#32
  let main_v15 : FVec F S4096x16384 .f32 := broadcastInDim S4096x16384 ![] bcast_S_S4096x16384 main_cst_4
  let main_v16 : IVec S4096x16384 1 := cmpf .olt main_v14 main_v15
  fn_part1 (F := F) main_arg3 main_arg4 main_arg5 main_arg6 main_arg7 main_arg8 main_v13 main_v16
-- ==== Kernel.lean ====
abbrev S16384x128 : Shape := ⟨2, ![16384, 128]⟩
abbrev S16384x64 : Shape := ⟨2, ![16384, 64]⟩
abbrev S4096x128 : Shape := ⟨2, ![4096, 128]⟩
abbrev S4096x16384 : Shape := ⟨2, ![4096, 16384]⟩
abbrev S128x64 : Shape := ⟨2, ![128, 64]⟩
abbrev S64 : Shape := ⟨1, ![64]⟩
abbrev S1x64 : Shape := ⟨2, ![1, 64]⟩
abbrev S4096x64 : Shape := ⟨2, ![4096, 64]⟩
abbrev S512x64 : Shape := ⟨2, ![512, 64]⟩
abbrev S512x2048 : Shape := ⟨2, ![512, 2048]⟩
abbrev S512x1 : Shape := ⟨2, ![512, 1]⟩
abbrev S2048x64 : Shape := ⟨2, ![2048, 64]⟩
abbrev S64x2048 : Shape := ⟨2, ![64, 2048]⟩
abbrev S512 : Shape := ⟨1, ![512]⟩
abbrev S4096x1x64 : Shape := ⟨3, ![4096, 1, 64]⟩

abbrev nBuf : Space → Nat
  | .hbm => 22
  | .vmem => 13
  | .smem => 0
  | _ => 0

abbrev bufTy : (tb : Table) → Fin (tcTables nBuf tb) → BufTy
  | .hbm, ⟨0, _⟩ => ⟨S16384x128, .f32⟩
  | .hbm, ⟨1, _⟩ => ⟨S16384x64, .f32⟩
  | .hbm, ⟨2, _⟩ => ⟨S4096x128, .f32⟩
  | .hbm, ⟨3, _⟩ => ⟨S4096x16384, .f32⟩
  | .hbm, ⟨4, _⟩ => ⟨S4096x16384, .i32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S16384x64, .f32⟩
  | .hbm, ⟨10, _⟩ => ⟨S1x64, .f32⟩
  | .hbm, ⟨11, _⟩ => ⟨S16384x64, .f32⟩
  | .hbm, ⟨12, _⟩ => ⟨S16384x64, .f32⟩
  | .hbm, ⟨13, _⟩ => ⟨S16384x64, .bf16⟩
  | .hbm, ⟨14, _⟩ => ⟨S4096x64, .f32⟩
  | .hbm, ⟨15, _⟩ => ⟨S1x64, .f32⟩
  | .hbm, ⟨16, _⟩ => ⟨S4096x64, .f32⟩
  | .hbm, ⟨17, _⟩ => ⟨S4096x64, .f32⟩
  | .hbm, ⟨18, _⟩ => ⟨S4096x64, .bf16⟩
  | .hbm, ⟨19, _⟩ => ⟨S16384x64, .bf16⟩
  | .hbm, ⟨20, _⟩ => ⟨S4096x64, .f32⟩
  | .hbm, ⟨21, _⟩ => ⟨S4096x1x64, .f32⟩
  | .local _ .vmem, ⟨0, _⟩ => ⟨S512x64, .bf16⟩
  | .local _ .vmem, ⟨1, _⟩ => ⟨S512x64, .bf16⟩
  | .local _ .vmem, ⟨2, _⟩ => ⟨S16384x64, .bf16⟩
  | .local _ .vmem, ⟨3, _⟩ => ⟨S16384x64, .bf16⟩
  | .local _ .vmem, ⟨4, _⟩ => ⟨S512x2048, .f32⟩
  | .local _ .vmem, ⟨5, _⟩ => ⟨S512x2048, .f32⟩
  | .local _ .vmem, ⟨6, _⟩ => ⟨S512x2048, .i32⟩
  | .local _ .vmem, ⟨7, _⟩ => ⟨S512x2048, .i32⟩
  | .local _ .vmem, ⟨8, _⟩ => ⟨S512x64, .f32⟩
  | .local _ .vmem, ⟨9, _⟩ => ⟨S512x64, .f32⟩
  | .local _ .vmem, ⟨10, _⟩ => ⟨S512x1, .f32⟩
  | .local _ .vmem, ⟨11, _⟩ => ⟨S512x1, .f32⟩
  | .local _ .vmem, ⟨12, _⟩ => ⟨S512x64, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v55 : BitVec 1 := Scalar.cmpi .eq arg1 c7_i32
  let v56 : BitVec 32 := Scalar.extui v55
  let c0_i32_27 : BitVec 32 := 0#32
  let v57 : BitVec 1 := Scalar.cmpi .ne v56 c0_i32_27
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16384x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16384x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bitsLt_bf16_f32 : FTy.bits .bf16 < FTy.bits .f32
  bcast_S1x64_S4096x64_0_1 : S1x64.BroadcastsInDim S4096x64 (![0, 1] : Fin 2 → Fin S4096x64.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  h_S2048x64 : 0 < S2048x64.numel
  shapeCasts_S2048x64_S2048x64 : S2048x64.ShapeCasts S2048x64
  transposes_S2048x64_p1_0_S64x2048 : S2048x64.Transposes [1, 0] S64x2048
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  bcast_S4096x64_S4096x1x64_0_2 : S4096x64.BroadcastsInDim S4096x1x64 (![0, 2] : Fin 2 → Fin S4096x1x64.rank)
  dot_S16384x128_S128x64_S16384x64_1_0_0_1_n_n_wf : DotDims.WF S16384x128 S128x64 S16384x64 [1] [0] [0] [1] [] []
  dot_S4096x128_S128x64_S4096x64_1_0_0_1_n_n_wf : DotDims.WF S4096x128 S128x64 S4096x64 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x64.size a ≤ S16384x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S4096x64.size a
  hwx0_0 : ∀ i : grid0.Coords, EltTy.bits .bf16 = 32 ∨ (Rect.block (s := S4096x64) S512x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x64.size a ≤ S16384x64.size a
  hwx0_1 : ∀ i : grid0.Coords, EltTy.bits .bf16 = 32 ∨ (Rect.block (s := S16384x64) S16384x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16384x64.size a ≤ S16384x64.size a
  hwx0_2 : ∀ i : grid0.Coords, EltTy.bits .bf16 = 32 ∨ (Rect.block (s := S16384x64) S16384x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x16384.size a
  hwx0_3 : ∀ i : grid0.Coords, EltTy.bits .f32 = 32 ∨ (Rect.block (s := S4096x16384) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S4096x16384.size a
  hwx0_4 : ∀ i : grid0.Coords, EltTy.bits .i32 = 32 ∨ (Rect.block (s := S4096x16384) S512x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x64.size a ≤ S4096x64.size a
  hwx0_5 : ∀ i : grid0.Coords, EltTy.bits .f32 = 32 ∨ (Rect.block (s := S4096x64) S512x64.size (cc0_transform_5 i) (hinb0_5 i)).WholeWords (EltTy.packing .f32)

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v9) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S16384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S16384x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x64 : Shape := ⟨2, ![16384, 64]⟩
abbrev S4096x128 : Shape := ⟨2, ![4096, 128]⟩
abbrev S4096x16384 : Shape := ⟨2, ![4096, 16384]⟩
abbrev S128x64 : Shape := ⟨2, ![128, 64]⟩
abbrev S64 : Shape := ⟨1, ![64]⟩
abbrev S1x64 : Shape := ⟨2, ![1, 64]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S4096x1x64 : Shape := ⟨3, ![4096, 1, 64]⟩

abbrev nBuf : Space → Nat
  | .hbm => 48
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x64, .f32⟩
  | .hbm, ⟨2, _⟩ => ⟨S4096x128, .f32⟩
  | .hbm, ⟨3, _⟩ => ⟨S4096x16384, .f32⟩
  | .hbm, ⟨4, _⟩ => ⟨S4096x16384, .i32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S16384x64, .f32⟩
  | .hbm, ⟨10, _⟩ => ⟨S1x64, .f32⟩
  | .hbm, ⟨11, _⟩ => ⟨S16384x64, .f32⟩
  | .hbm, ⟨12, _⟩ => ⟨S16384x64, .f32⟩
  | .hbm, ⟨13, _⟩ => ⟨S4096x64, .f32⟩
  | .hbm, ⟨14, _⟩ => ⟨S1x64, .f32⟩
  | .hbm, ⟨15, _⟩ => ⟨S4096x64, .f32⟩
  | .hbm, ⟨16, _⟩ => ⟨S4096x64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4096x16384, .f32⟩
  | .hbm, ⟨22, _⟩ => ⟨S4096x16384, .f32⟩
  | .hbm, ⟨23, _⟩ => ⟨S4096x16384, .f32⟩
  | .hbm, ⟨24, _⟩ => ⟨S4096x16384, .f32⟩
  | .hbm, ⟨25, _⟩ => ⟨S4096x16384, .f32⟩
  | .hbm, ⟨26, _⟩ => ⟨S4096x16384, .f32⟩
  | .hbm, ⟨27, _⟩ => ⟨S_, .f32⟩
  | .hbm, ⟨28, _⟩ => ⟨S4096x16384, .f32⟩
  | .hbm, ⟨29, _⟩ => ⟨S4096x16384, .i1⟩
  | .hbm, ⟨30, _⟩ => ⟨S_, .f32⟩
  | .hbm, ⟨31, _⟩ => ⟨S_, .f32⟩
  | .hbm, ⟨32, _⟩ => ⟨S4096x16384, .f32⟩
  | .hbm, ⟨33, _⟩ => ⟨S4096x16384, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x16384, .f32⟩
  | .hbm, ⟨38, _⟩ => ⟨S4096x16384, .f32⟩
  | .hbm, ⟨39, _⟩ => ⟨S4096x16384, .f32⟩
  | .hbm, ⟨40, _⟩ => ⟨S4096x16384, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x16384, .f32⟩
  | .hbm, ⟨45, _⟩ => ⟨S4096x16384, .f32⟩
  | .hbm, ⟨46, _⟩ => ⟨S4096x64, .f32⟩
  | .hbm, ⟨47, _⟩ => ⟨S4096x1x64, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S1x64_S4096x64_0_1 : S1x64.BroadcastsInDim S4096x64 (![0, 1] : Fin 2 → Fin S4096x64.rank)
  bcast_S_S4096x16384 : S_.BroadcastsInDim S4096x16384 (![] : Fin 0 → Fin S4096x16384.rank)
  reducesTo_S4096x16384_S4096_d1 : S4096x16384.ReducesTo [1] S4096
  h_S_ : 0 < S_.numel
  bcast_S4096_S4096x1_0 : S4096.BroadcastsInDim S4096x1 (![0] : Fin 1 → Fin S4096x1.rank)
  bcast_S4096x1_S4096x16384_0_1 : S4096x1.BroadcastsInDim S4096x16384 (![0, 1] : Fin 2 → Fin S4096x16384.rank)
  bcast_S4096x64_S4096x1x64_0_2 : S4096x64.BroadcastsInDim S4096x1x64 (![0, 2] : Fin 2 → Fin S4096x1x64.rank)
  dot_S16384x128_S128x64_S16384x64_1_0_0_1_n_n_wf : DotDims.WF S16384x128 S128x64 S16384x64 [1] [0] [0] [1] [] []
  dot_S4096x128_S128x64_S4096x64_1_0_0_1_n_n_wf : DotDims.WF S4096x128 S128x64 S4096x64 [1] [0] [0] [1] [] []
  dot_S4096x64_S16384x64_S4096x16384_1_1_0_0_n_n_wf : DotDims.WF S4096x64 S16384x64 S4096x16384 [1] [1] [0] [0] [] []
  dot_S4096x16384_S16384x64_S4096x64_1_0_0_1_n_n_wf : DotDims.WF S4096x16384 S16384x64 S4096x64 [1] [0] [0] [1] [] []

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S16384x64_S4096x16384_1_1_0_0_n_n : DotDims S4096x64 S16384x64 S4096x16384 where
  lhsContracting := [1]
  rhsContracting := [1]
  lhsNonContracting := [0]
  rhsNonContracting := [0]
  lhsBatch := []
  rhsBatch := []
  wf := dot_S4096x64_S16384x64_S4096x16384_1_1_0_0_n_n_wf
def dot_S4096x16384_S16384x64_S4096x64_1_0_0_1_n_n : DotDims S4096x16384 S16384x64 S4096x64 where
  lhsContracting := [1]
  rhsContracting := [0]
  lhsNonContracting := [0]
  rhsNonContracting := [1]
  lhsBatch := []
  rhsBatch := []
  wf := dot_S4096x16384_S16384x64_S4096x64_1_0_0_1_n_n_wf

class Facts : Prop extends Facts₀ where

variable [Facts]
-- ==== Proof.Spec.lean ====
/-
  Masked attention with a soft mask, as two formulas over the extended reals.

  A query row q sees column s when the hard mask admits it; its raw logit is the scaled inner product of the
  projected query and key.  The streamed form walks the columns tile by tile, keeping a running maximum of the
  admitted raw logits, a running denominator and a running numerator, each rescaled by exp (old max − new max)
  when the maximum moves; the soft mask enters as a plain factor.  The direct form adds log (soft mask) to the
  logit, shifts by the row maximum of the admitted shifted logits, and normalises.
-/
import Idealize.ShloMosaic.PureOps.Ideal
import Idealize.ShloMosaic.PureOps.Ideal.Laws
import Idealize.ShloMosaic.Lib.ValueIdx

noncomputable section

namespace OnlineSoftmax

open Idealize.ShloMosaic

/-! ## One tile of the streamed form, on one row -/

variable {K : ℕ}

/-- The largest admitted raw logit of a tile (−∞ when the tile admits no column). -/
def tileMax (a : Fin K → EReal) (b : Fin K → Bool) : EReal :=
  (Finset.univ : Finset (Fin K)).fold max ⊥ (fun j => if b j = true then a j else ⊥)

/-- The running maximum after the tile. -/
def newMax (m : EReal) (a : Fin K → EReal) (b : Fin K → Bool) : EReal := max m (tileMax a b)

/-- The factor that re-expresses the old sums against the new maximum. -/
def rescale (m : EReal) (a : Fin K → EReal) (b : Fin K → Bool) : EReal := Ideal.exp (m - newMax m a b)

/-- A column's weight against the new maximum: exp (logit − max) · soft mask where admitted, else 0. -/
def weight (m : EReal) (a : Fin K → EReal) (b : Fin K → Bool) (w : Fin K → EReal) (j : Fin K) : EReal :=
  if b j = true then Ideal.exp (a j - newMax m a b) * w j else 0

/-- The running denominator after the tile. -/
def newDen (m l : EReal) (a : Fin K → EReal) (b : Fin K → Bool) (w : Fin K → EReal) : EReal :=
  rescale m a b * l + ∑ j, weight m a b w j

/-- The running numerator (one value column) after the tile. -/
def newNum (m n : EReal) (a : Fin K → EReal) (b : Fin K → Bool) (w y : Fin K → EReal) : EReal :=
  rescale m a b * n + ∑ j, weight m a b w j * y j

/-! ## The streamed form after n tiles (tiles numbered from 0) -/

def maxAfter (a : ℕ → Fin K → EReal) (b : ℕ → Fin K → Bool) : ℕ → EReal
  | 0 => ⊥
  | n + 1 => newMax (maxAfter a b n) (a n) (b n)

def denAfter (a : ℕ → Fin K → EReal) (b : ℕ → Fin K → Bool) (w : ℕ → Fin K → EReal) : ℕ → EReal
  | 0 => 0
  | n + 1 => newDen (maxAfter a b n) (denAfter a b w n) (a n) (b n) (w n)

def numAfter (a : ℕ → Fin K → EReal) (b : ℕ → Fin K → Bool) (w y : ℕ → Fin K → EReal) : ℕ → EReal
  | 0 => 0
  | n + 1 => newNum (maxAfter a b n) (numAfter a b w y n) (a n) (b n) (w n) (y n)

/-- The streamed form's result: numerator over denominator. -/
def streamed (a : ℕ → Fin K → EReal) (b : ℕ → Fin K → Bool) (w y : ℕ → Fin K → EReal) (n : ℕ) : EReal :=
  Ideal.div (numAfter a b w y n) (denAfter a b w n)

/-! ## The direct form on one row, over all N columns -/

variable {N : ℕ}

/-- The row maximum of the admitted shifted logits (−∞ when none is admitted); `mk` is the mask as a number. -/
def rowMax (z mk : Fin N → EReal) : EReal :=
  (Finset.univ : Finset (Fin N)).fold max ⊥ (fun s => if 0 < mk s then z s else ⊥)

/-- A column's unnormalised weight. -/
def rowTerm (z mk : Fin N → EReal) (s : Fin N) : EReal := Ideal.exp (z s - rowMax z mk) * mk s

/-- The direct form's result for one value column. -/
def direct (z mk y : Fin N → EReal) : EReal :=
  ∑ s, Ideal.div (rowTerm z mk s) (0 + ∑ s', rowTerm z mk s') * y s

/-! ## The arrays of this program: 4096 queries, 16384 keys in 8 tiles of 2048, width 64 -/

/-- Column j of tile t (tiles taken modulo 8, so that the function is total). -/
def col (t : ℕ) (j : Fin 2048) : Fin 16384 := ⟨(t % 8) * 2048 + j.val, by have := j.isLt; have := Nat.mod_lt t (show 0 < 8 by decide); omega⟩

/-- A linear projection: x · W + bias. -/
def proj {n : ℕ} (x : Fin n → Fin 128 → EReal) (W : Fin 128 → Fin 64 → EReal) (bias : Fin 64 → EReal)
    (r : Fin n) (d : Fin 64) : EReal := (∑ i : Fin 128, x r i * W i d) + bias d

/-- The raw logit: the inner product of projected query and key, times 1/8. -/
def rawLogit (Q : Fin 4096 → Fin 64 → EReal) (Kk : Fin 16384 → Fin 64 → EReal) (q : Fin 4096) (s : Fin 16384) : EReal :=
  (∑ d : Fin 64, Q q d * Kk s d) * Ideal.ofBits .f32 0x3E000000#32

/-- The streamed result at query q, value column v. -/
def streamedAt (Q : Fin 4096 → Fin 64 → EReal) (Kk : Fin 16384 → Fin 64 → EReal) (soft : Fin 4096 → Fin 16384 → EReal)
    (on : Fin 4096 → Fin 16384 → Bool) (Y : Fin 16384 → Fin 64 → EReal) (q : Fin 4096) (v : Fin 64) : EReal :=
  streamed (fun t j => rawLogit Q Kk q (col t j)) (fun t j => on q (col t j)) (fun t j => soft q (col t j))
    (fun t j => Y (col t j) v) 8

/-- The direct result at query q, value column v; `mk` is the hard mask as a number. -/
def directAt (Q : Fin 4096 → Fin 64 → EReal) (Kk : Fin 16384 → Fin 64 → EReal) (soft mk : Fin 4096 → Fin 16384 → EReal)
    (Y : Fin 16384 → Fin 64 → EReal) (q : Fin 4096) (v : Fin 64) : EReal :=
  direct (fun s => rawLogit Q Kk q s + Ideal.log (soft q s)) (fun s => mk q s) (fun s => Y s v)

/-! ## From the nine argument arrays -/

open Idealize.ShloMosaic.ValueIdx

/-- A rank-2 array as a function of its row and column. -/
def mat {n0 n1 : ℕ} {α : Type} (x : (⟨2, ![n0, n1]⟩ : Shape).Idx → α) (r : Fin n0) (k : Fin n1) : α := x (ix2 r k)

/-- A rank-1 array as a function of its position. -/
def vec {n : ℕ} {α : Type} (x : (⟨1, ![n]⟩ : Shape).Idx → α) (k : Fin n) : α := x (ix1 k)

/-- The hard mask admits column s for query q when its integer entry is positive. -/
def admits (mask : (⟨2, ![4096, 16384]⟩ : Shape).Idx → BitVec 32) (q : Fin 4096) (s : Fin 16384) : Bool :=
  decide (IntOp.cmpi .sgt (mask (ix2 q s)) 0#32 = 1#1)

/-- The hard mask's integer entry as an extended real. -/
def maskNum (mask : (⟨2, ![4096, 16384]⟩ : Shape).Idx → BitVec 32) (q : Fin 4096) (s : Fin 16384) : EReal :=
  FloatOps.sitofp (F := Ideal) .f32 (mask (ix2 q s))

/-- The streamed form of the nine arguments: keys from (x0, x5, x6), values x1, queries from (x2, x7, x8), soft mask x3,
    hard mask x4. -/
def streamedOf (x0 : (⟨2, ![16384, 128]⟩ : Shape).Idx → EReal) (x1 : (⟨2, ![16384, 64]⟩ : Shape).Idx → EReal)
    (x2 : (⟨2, ![4096, 128]⟩ : Shape).Idx → EReal) (x3 : (⟨2, ![4096, 16384]⟩ : Shape).Idx → EReal)
    (x4 : (⟨2, ![4096, 16384]⟩ : Shape).Idx → BitVec 32) (x5 : (⟨2, ![128, 64]⟩ : Shape).Idx → EReal)
    (x6 : (⟨1, ![64]⟩ : Shape).Idx → EReal) (x7 : (⟨2, ![128, 64]⟩ : Shape).Idx → EReal)
    (x8 : (⟨1, ![64]⟩ : Shape).Idx → EReal) (q : Fin 4096) (v : Fin 64) : EReal :=
  streamedAt (proj (mat x2) (mat x7) (vec x8)) (proj (mat x0) (mat x5) (vec x6)) (mat x3) (admits x4) (mat x1) q v

/-- The direct form of the nine arguments. -/
def directOf (x0 : (⟨2, ![16384, 128]⟩ : Shape).Idx → EReal) (x1 : (⟨2, ![16384, 64]⟩ : Shape).Idx → EReal)
    (x2 : (⟨2, ![4096, 128]⟩ : Shape).Idx → EReal) (x3 : (⟨2, ![4096, 16384]⟩ : Shape).Idx → EReal)
    (x4 : (⟨2, ![4096, 16384]⟩ : Shape).Idx → BitVec 32) (x5 : (⟨2, ![128, 64]⟩ : Shape).Idx → EReal)
    (x6 : (⟨1, ![64]⟩ : Shape).Idx → EReal) (x7 : (⟨2, ![128, 64]⟩ : Shape).Idx → EReal)
    (x8 : (⟨1, ![64]⟩ : Shape).Idx → EReal) (q : Fin 4096) (v : Fin 64) : EReal :=
  directAt (proj (mat x2) (mat x7) (vec x8)) (proj (mat x0) (mat x5) (vec x6)) (mat x3) (maskNum x4) (mat x1) q v

/-- What the precondition says of the nine arguments: every float entry a real number, every soft-mask entry
    positive, every hard-mask entry 0 or 1, and every query admitted to at least one column. -/
structure Admissible (x0 : (⟨2, ![16384, 128]⟩ : Shape).Idx → EReal) (x1 : (⟨2, ![16384, 64]⟩ : Shape).Idx → EReal)
    (x2 : (⟨2, ![4096, 128]⟩ : Shape).Idx → EReal) (x3 : (⟨2, ![4096, 16384]⟩ : Shape).Idx → EReal)
    (x4 : (⟨2, ![4096, 16384]⟩ : Shape).Idx → BitVec 32) (x5 : (⟨2, ![128, 64]⟩ : Shape).Idx → EReal)
    (x6 : (⟨1, ![64]⟩ : Shape).Idx → EReal) (x7 : (⟨2, ![128, 64]⟩ : Shape).Idx → EReal)
    (x8 : (⟨1, ![64]⟩ : Shape).Idx → EReal) : Prop where
  fin0 : ∀ i, ∃ r : ℝ, x0 i = (r : EReal)
  fin1 : ∀ i, ∃ r : ℝ, x1 i = (r : EReal)
  fin2 : ∀ i, ∃ r : ℝ, x2 i = (r : EReal)
  pos3 : ∀ i, ∃ r : ℝ, 0 < r ∧ x3 i = (r : EReal)
  bin4 : ∀ i, x4 i = 0#32 ∨ x4 i = 1#32
  row4 : ∀ q : Fin 4096, ∃ s : Fin 16384, x4 (ix2 q s) = 1#32
  fin5 : ∀ i, ∃ r : ℝ, x5 i = (r : EReal)
  fin6 : ∀ i, ∃ r : ℝ, x6 i = (r : EReal)
  fin7 : ∀ i, ∃ r : ℝ, x7 i = (r : EReal)
  fin8 : ∀ i, ∃ r : ℝ, x8 i = (r : EReal)

end OnlineSoftmax

end
-- ==== Proof.KerDefs.lean ====
/-
  The kernel body's arithmetic at one grid point, named: the tile of key / value rows the point uses, and what the
  point leaves in the three carried buffers (running maximum, denominator, numerator) and, at a row tile's last
  point, in the output block, each as one function of the point's input blocks and of what the point before left.
-/
import proofs.«406999_j21242908246230_3_alg».proof.Proof.Gen.KernelIdeal.Frame
import proofs.«406999_j21242908246230_3_alg».proof.Proof.Spec

noncomputable section

namespace Cert.KernelIdeal.KerValue

open Idealize.ShloMosaic Idealize.ShloMosaic.TcCoe Idealize.SL.Sem
open Idealize.ShloMosaic.ValueIdx
open Cert.KernelIdeal Cert.KernelIdeal.Gen

variable {F : FTy → Type} [FloatOps F] [Named F]

/-- The 2048 rows of a resident [16384, 64] block that the point's column tile names. -/
def tile (i : grid0.Coords) (x : Vec F S16384x64 .bf16) : Vec F S2048x64 .bf16 :=
  View.ld x (Rect.unit (s := S16384x64) (k0_off1 i) S2048x64.size (k0_off1_inb i))

/-- The running maximum a point leaves, from its query block x0, the keys x1, the hard-mask block x4 and the
    maximum xs0 it found. -/
def stepMax (i : grid0.Coords) (x0 : Vec F S512x64 .bf16) (x1 : Vec F S16384x64 .bf16) (x4 : Vec F S512x2048 .i32)
    (xs0 : Vec F S512x1 .f32) : Vec F S512x1 .f32 :=
  k0_pay3 (k0_pay11 (tile i x1) x0 x4 xs0)

/-- The running denominator a point leaves; x3 is the soft-mask block, xs1 the denominator it found. -/
def stepDen (i : grid0.Coords) (x0 : Vec F S512x64 .bf16) (x1 : Vec F S16384x64 .bf16) (x3 : Vec F S512x2048 .f32)
    (x4 : Vec F S512x2048 .i32) (xs0 xs1 : Vec F S512x1 .f32) : Vec F S512x1 .f32 :=
  k0_pay1 (k0_pay12 (tile i x1) x0 x4 xs0) (k0_pay13 (tile i x1) x0 x4 xs0 x3) xs1

/-- The running numerator a point leaves; x2 holds the values, xs2 the numerator it found. -/
def stepNum (i : grid0.Coords) (x0 : Vec F S512x64 .bf16) (x1 x2 : Vec F S16384x64 .bf16) (x3 : Vec F S512x2048 .f32)
    (x4 : Vec F S512x2048 .i32) (xs0 : Vec F S512x1 .f32) (xs2 : Vec F S512x64 .f32) : Vec F S512x64 .f32 :=
  k0_pay2 (k0_pay8 (tile i x2)) (k0_pay12 (tile i x1) x0 x4 xs0) (k0_pay13 (tile i x1) x0 x4 xs0 x3) xs2

/-- The output block a row tile's last point stores: numerator over denominator. -/
def outBlock (i : grid0.Coords) (x0 : Vec F S512x64 .bf16) (x1 x2 : Vec F S16384x64 .bf16) (x3 : Vec F S512x2048 .f32)
    (x4 : Vec F S512x2048 .i32) (xs0 xs1 : Vec F S512x1 .f32) (xs2 : Vec F S512x64 .f32) : Vec F S512x64 .f32 :=
  k0_pay4 (stepNum i x0 x1 x2 x3 x4 xs0 xs2) (stepDen i x0 x1 x3 x4 xs0 xs1)

/-- A query block's raw logit against row s of the keys: the inner product over the 64 key coordinates, times 1/8. -/
def rawAt (x0 : S512x64.Idx → EReal) (x1 : S16384x64.Idx → EReal) (r : Fin 512) (s : Fin 16384) : EReal :=
  (∑ d : Fin 64, x0 (ix2 r d) * x1 (ix2 s d)) * Ideal.ofBits .f32 0x3E000000#32

/-- The hard-mask block admits column j for row r. -/
def onAt (x4 : S512x2048.Idx → BitVec 32) (r : Fin 512) (j : Fin 2048) : Bool :=
  decide (IntOp.cmpi .sgt (x4 (ix2 r j)) 0#32 = 1#1)

/-! ## The point's input blocks, at their literal types -/

variable (m : (ℓ : Loc nD τ sig) → Buf (Elt F) ℓ)

abbrev qBlk (c : Dev nD) (t : Fin cfg0.N) : Vec F S512x64 .bf16 := iblk m c 0 t
abbrev kBlk (c : Dev nD) (t : Fin cfg0.N) : Vec F S16384x64 .bf16 := iblk m c 1 t
abbrev vBlk (c : Dev nD) (t : Fin cfg0.N) : Vec F S16384x64 .bf16 := iblk m c 2 t
abbrev sBlk (c : Dev nD) (t : Fin cfg0.N) : Vec F S512x2048 .f32 := iblk m c 3 t
abbrev mBlk (c : Dev nD) (t : Fin cfg0.N) : Vec F S512x2048 .i32 := iblk m c 4 t

/-- The nine argument arrays as the memory holds them, at their literal types. -/
abbrev a0 (c : Dev nD) : FVec F S16384x128 .f32 := m ((c : Thread nD τ).loc main_arg0)
abbrev a1 (c : Dev nD) : FVec F S16384x64 .f32 := m ((c : Thread nD τ).loc main_arg1)
abbrev a2 (c : Dev nD) : FVec F S4096x128 .f32 := m ((c : Thread nD τ).loc main_arg2)
abbrev a3 (c : Dev nD) : FVec F S4096x16384 .f32 := m ((c : Thread nD τ).loc main_arg3)
abbrev a4 (c : Dev nD) : IVec S4096x16384 32 := m ((c : Thread nD τ).loc main_arg4)
abbrev a5 (c : Dev nD) : FVec F S128x64 .f32 := m ((c : Thread nD τ).loc main_arg5)
abbrev a6 (c : Dev nD) : FVec F S64 .f32 := m ((c : Thread nD τ).loc main_arg6)
abbrev a7 (c : Dev nD) : FVec F S128x64 .f32 := m ((c : Thread nD τ).loc main_arg7)
abbrev a8 (c : Dev nD) : FVec F S64 .f32 := m ((c : Thread nD τ).loc main_arg8)

/-- The query row that row r of the row tile of point t is. -/
def qRow (t : Fin cfg0.N) (r : Fin 512) : Fin 4096 :=
  ⟨(t.val / 8) * 512 + r.val, by have := t.isLt; have h : cfg0.N = 64 := N_0; have := r.isLt; omega⟩

end Cert.KernelIdeal.KerValue

end
-- ==== Proof.KerPieces.lean ====
/-
  What each control case of the kernel body leaves in the carried buffers and the output block, as the named step functions of the blocks it loads.
-/
import proofs.«406999_j21242908246230_3_alg».proof.Proof.KerDefs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KerValue

open Idealize.ShloMosaic Idealize.ShloMosaic.TcCoe Idealize.ShloMosaic.Tactic
open Idealize.SL Idealize.SL.Sem
open Idealize.ShloMosaic.ValueIdx
open Cert.KernelIdeal Cert.KernelIdeal.Gen OnlineSoftmax

variable {F : FTy → Type} [FloatOps F] [Named F]
variable (c : Dev nD) (i : grid0.Coords) (arg2 : Memref sig .tc .vmem S512x64 .bf16) (harg2 : arg2.IsWhole) (arg3 : Memref sig .tc .vmem S16384x64 .bf16) (harg3 : arg3.IsWhole) (arg4 : Memref sig .tc .vmem S16384x64 .bf16) (harg4 : arg4.IsWhole) (arg5 : Memref sig .tc .vmem S512x2048 .f32) (harg5 : arg5.IsWhole) (arg6 : Memref sig .tc .vmem S512x2048 .i32) (harg6 : arg6.IsWhole) (arg7 : Memref sig .tc .vmem S512x64 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x64 .f32) (harg10 : arg10.IsWhole)
variable (x0 : Vec F S512x64 .bf16) (x1 : Vec F S16384x64 .bf16) (x2 : Vec F S16384x64 .bf16) (x3 : Vec F S512x2048 .f32) (x4 : Vec F S512x2048 .i32) (xs0 : Vec F S512x1 .f32) (xs1 : Vec F S512x1 .f32) (xs2 : Vec F S512x64 .f32)

/-- The zero offsets of a rank-2 block, however spelt. -/
private theorem hz1 : (![0, 0] : Fin 2 → Nat) = fun _ => 0 := by
  funext a; match a with | ⟨0, _⟩ => rfl | ⟨1, _⟩ => rfl

/-! ## A column tile's first point: the carried buffers are reset (to −∞, 0, 0) and then stepped -/

theorem sout0_A_0_eq (hc0 : cond0_0 i) (hc1 : ¬cond0_1 i) :
    sout0_A_0 c i arg2 harg2 arg3 harg3 arg4 harg4 arg5 harg5 arg6 harg6 arg7 harg7 arg8 harg8 arg9 harg9 arg10 harg10 hc0 hc1 x0 x1 x2 x3 x4 = stepMax i x0 x1 x4 k0_pay5 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x1) hz1, View.readCov_unit_zero (S := S512x1) arg8.view hz1]
  simp only [View.readAt_eq_ld, Memref.IsWhole.read_unread, View.ld_unit_zero (S := S512x64) hz1, View.ld_unit_zero (S := S512x2048) hz1, View.ld_unit_zero (S := S512x1) hz1]
  rfl

theorem sout0_A_1_eq (hc0 : cond0_0 i) (hc1 : ¬cond0_1 i) :
    sout0_A_1 c i arg2 harg2 arg3 harg3 arg4 harg4 arg5 harg5 arg6 harg6 arg7 harg7 arg8 harg8 arg9 harg9 arg10 harg10 hc0 hc1 x0 x1 x2 x3 x4 = stepDen i x0 x1 x3 x4 k0_pay5 k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x1) hz1, View.readCov_unit_zero (S := S512x1) arg8.view hz1,
    View.readCov_unit_zero (S := S512x1) arg9.view hz1]
  simp only [View.readAt_eq_ld, Memref.IsWhole.read_unread, View.ld_unit_zero (S := S512x64) hz1, View.ld_unit_zero (S := S512x2048) hz1, View.ld_unit_zero (S := S512x1) hz1]
  rfl

theorem sout0_A_2_eq (hc0 : cond0_0 i) (hc1 : ¬cond0_1 i) :
    sout0_A_2 c i arg2 harg2 arg3 harg3 arg4 harg4 arg5 harg5 arg6 harg6 arg7 harg7 arg8 harg8 arg9 harg9 arg10 harg10 hc0 hc1 x0 x1 x2 x3 x4 = stepNum i x0 x1 x2 x3 x4 k0_pay5 k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S512x64) hz1, View.readCov_unit_zero (S := S512x1) arg8.view hz1,
    View.readCov_unit_zero (S := S512x64) arg10.view hz1]
  simp only [View.readAt_eq_ld, Memref.IsWhole.read_unread, View.ld_unit_zero (S := S512x64) hz1, View.ld_unit_zero (S := S512x2048) hz1, View.ld_unit_zero (S := S512x1) hz1]
  rfl

/-! ## A middle point: stepped from what the point before left -/

theorem sout0_B_0_eq (hc0 : ¬cond0_0 i) (hc1 : ¬cond0_1 i) :
    sout0_B_0 c i arg2 harg2 arg3 harg3 arg4 harg4 arg5 harg5 arg6 harg6 arg7 harg7 arg8 harg8 arg9 harg9 arg10 harg10 hc0 hc1 x0 x1 x2 x3 x4 xs0 xs1 xs2 = stepMax i x0 x1 x4 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero (S := S512x1) hz1]
  simp only [View.readAt_eq_ld, Memref.IsWhole.read_unread, View.ld_unit_zero (S := S512x64) hz1, View.ld_unit_zero (S := S512x2048) hz1, View.ld_unit_zero (S := S512x1) hz1]
  rfl

theorem sout0_B_1_eq (hc0 : ¬cond0_0 i) (hc1 : ¬cond0_1 i) :
    sout0_B_1 c i arg2 harg2 arg3 harg3 arg4 harg4 arg5 harg5 arg6 harg6 arg7 harg7 arg8 harg8 arg9 harg9 arg10 harg10 hc0 hc1 x0 x1 x2 x3 x4 xs0 xs1 xs2 = stepDen i x0 x1 x3 x4 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero (S := S512x1) hz1]
  simp only [View.readAt_eq_ld, Memref.IsWhole.read_unread, View.ld_unit_zero (S := S512x64) hz1, View.ld_unit_zero (S := S512x2048) hz1, View.ld_unit_zero (S := S512x1) hz1]
  rfl

theorem sout0_B_2_eq (hc0 : ¬cond0_0 i) (hc1 : ¬cond0_1 i) :
    sout0_B_2 c i arg2 harg2 arg3 harg3 arg4 harg4 arg5 harg5 arg6 harg6 arg7 harg7 arg8 harg8 arg9 harg9 arg10 harg10 hc0 hc1 x0 x1 x2 x3 x4 xs0 xs1 xs2 = stepNum i x0 x1 x2 x3 x4 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero (S := S512x64) hz1]
  simp only [View.readAt_eq_ld, Memref.IsWhole.read_unread, View.ld_unit_zero (S := S512x64) hz1, View.ld_unit_zero (S := S512x2048) hz1, View.ld_unit_zero (S := S512x1) hz1]
  rfl

/-! ## A column tile's last point: stepped, and the quotient stored -/

theorem sout0_C_0_eq (hc0 : ¬cond0_0 i) (hc1 : cond0_1 i) :
    sout0_C_0 c i arg2 harg2 arg3 harg3 arg4 harg4 arg5 harg5 arg6 harg6 arg7 harg7 arg8 harg8 arg9 harg9 arg10 harg10 hc0 hc1 x0 x1 x2 x3 x4 xs0 xs1 xs2 = stepMax i x0 x1 x4 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero (S := S512x1) hz1]
  simp only [View.readAt_eq_ld, Memref.IsWhole.read_unread, View.ld_unit_zero (S := S512x64) hz1, View.ld_unit_zero (S := S512x2048) hz1, View.ld_unit_zero (S := S512x1) hz1]
  rfl

theorem sout0_C_1_eq (hc0 : ¬cond0_0 i) (hc1 : cond0_1 i) :
    sout0_C_1 c i arg2 harg2 arg3 harg3 arg4 harg4 arg5 harg5 arg6 harg6 arg7 harg7 arg8 harg8 arg9 harg9 arg10 harg10 hc0 hc1 x0 x1 x2 x3 x4 xs0 xs1 xs2 = stepDen i x0 x1 x3 x4 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero (S := S512x1) hz1]
  simp only [View.readAt_eq_ld, Memref.IsWhole.read_unread, View.ld_unit_zero (S := S512x64) hz1, View.ld_unit_zero (S := S512x2048) hz1, View.ld_unit_zero (S := S512x1) hz1]
  rfl

theorem sout0_C_2_eq (hc0 : ¬cond0_0 i) (hc1 : cond0_1 i) :
    sout0_C_2 c i arg2 harg2 arg3 harg3 arg4 harg4 arg5 harg5 arg6 harg6 arg7 harg7 arg8 harg8 arg9 harg9 arg10 harg10 hc0 hc1 x0 x1 x2 x3 x4 xs0 xs1 xs2 = stepNum i x0 x1 x2 x3 x4 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero (S := S512x64) hz1]
  simp only [View.readAt_eq_ld, Memref.IsWhole.read_unread, View.ld_unit_zero (S := S512x64) hz1, View.ld_unit_zero (S := S512x2048) hz1, View.ld_unit_zero (S := S512x1) hz1]
  rfl

theorem out0_C_5_eq (hc0 : ¬cond0_0 i) (hc1 : cond0_1 i) :
    out0_C_5 c i arg2 harg2 arg3 harg3 arg4 harg4 arg5 harg5 arg6 harg6 arg7 harg7 arg8 harg8 arg9 harg9 arg10 harg10 hc0 hc1 x0 x1 x2 x3 x4 xs0 xs1 xs2 = outBlock i x0 x1 x2 x3 x4 xs0 xs1 xs2 := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero (S := S512x64) hz1, View.readCov_unit_zero (S := S512x64) _ hz1,
    View.readCov_unit_zero (S := S512x1) _ hz1]
  simp only [View.readAt_eq_ld, Memref.IsWhole.read_unread, View.ld_unit_zero (S := S512x64) hz1, View.ld_unit_zero (S := S512x2048) hz1, View.ld_unit_zero (S := S512x1) hz1]
  rfl

end Cert.KernelIdeal.KerValue

end
-- ==== Proof.KerStepAt.lean ====
/-
  The step functions of one grid point read entry by entry at the ideal instance: each row's running maximum, denominator and numerator take one tile step of the streamed form.
-/
import proofs.«406999_j21242908246230_3_alg».proof.Proof.KerDefs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KerValue

open Idealize.ShloMosaic Idealize.ShloMosaic.TcCoe Idealize.ShloMosaic.Tactic
open Idealize.SL Idealize.SL.Sem
open Idealize.ShloMosaic.ValueIdx
open Cert.KernelIdeal Cert.KernelIdeal.Gen OnlineSoftmax

/-! # Auxiliary readings, each at explicit coordinates -/

namespace StepAt

/-! ## Layout operations of a column, at explicit coordinates -/

section Layout
variable {α : Type}

/-- A vector [a] cast to the column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Layout

/-! ## The two lane reductions of a [512, 2048] block, at a row -/

/-- The reduced index with the lane coordinate put back is (r, k). -/
theorem lift_row (r : Fin 512) (k : Fin 2048) : reduces_S512x2048_S512.lift (ix1 r) k = ix2 r k := by
  funext a
  match a with
  | ⟨0, _⟩ => exact Fin.ext rfl
  | ⟨1, _⟩ => exact Fin.ext rfl

/-- The f32 word of −∞ is the bottom of the extended reals. -/
theorem ofBits_neg_inf : FloatOps.ofBits (F := Ideal) .f32 0xFF800000#32 = (⊥ : EReal) := by
  simp [Ideal.ofBits, Ideal.ieee]

/-- A row's maximum over its 2048 lanes. -/
theorem rowMax_apply (src : FVec Ideal S512x2048 .f32) (r : Fin 512) :
    multiReduction (F := Ideal) .maximumf [1] S512 src 0xFF800000#32 reduces_S512x2048_S512 (.inl rfl) rfl (ix1 r)
      = (Finset.univ : Finset (Fin 2048)).fold max ⊥ (fun k => src (ix2 r k)) := by
  refine (Ideal.multiReduction_maximumf_single src 0xFF800000#32 reduces_S512x2048_S512 (.inl rfl) rfl (ix1 r)).trans ?_
  rw [ofBits_neg_inf]
  exact congrArg (fun f : Fin 2048 → EReal => (Finset.univ : Finset (Fin 2048)).fold max ⊥ f)
    (funext fun k => congrArg src (lift_row r k))

/-- A row's sum over its 2048 lanes. -/
theorem rowSum_apply (src : FVec Ideal S512x2048 .f32) (r : Fin 512) :
    multiReduction (F := Ideal) .add [1] S512 src 0x00000000#32 reduces_S512x2048_S512 (.inl rfl) rfl (ix1 r)
      = ∑ k : Fin 2048, src (ix2 r k) := by
  refine (Ideal.multiReduction_add_single src 0x00000000#32 reduces_S512x2048_S512 (.inl rfl) rfl (ix1 r)).trans ?_
  show ∑ k : Fin 2048, src (reduces_S512x2048_S512.lift (ix1 r) k) = _
  simp only [lift_row]

/-! ## The two products, at an entry -/

theorem lhs_qk_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem lhs_qk_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
theorem rhs_qk_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
theorem rhs_qk_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- Queries times transposed keys at (r, j): the inner product over the 64 coordinates. -/
theorem matmul_qk_apply (lhs : FVec Ideal S512x64 .bf16) (rhs : FVec Ideal S64x2048 .bf16) (r : Fin 512) (j : Fin 2048) :
    matmul dot_S512x64_S64x2048_S512x2048_1_0_0_1_n_n none lhs rhs (constant (F := Ideal) S512x2048 .f32 0x00000000#32) (ix2 r j)
      = ∑ d : Fin 64, lhs (ix2 r d) * rhs (ix2 d j) := by
  refine (Ideal.matmul_constant_zero_apply dot_S512x64_S64x2048_S512x2048_1_0_0_1_n_n none lhs rhs (ix2 r j)).trans ?_
  rw [← Equiv.sum_comp (ValueIdx.contrEquiv1 dot_S512x64_S64x2048_S512x2048_1_0_0_1_n_n 64 rfl rfl).symm]
  refine Finset.sum_congr rfl fun k _ => ?_
  have hk := ValueIdx.contrEquiv1_symm_val dot_S512x64_S64x2048_S512x2048_1_0_0_1_n_n 64 rfl rfl k
  have el : dot_S512x64_S64x2048_S512x2048_1_0_0_1_n_n.lhsIdx (ix2 r j) ((ValueIdx.contrEquiv1 dot_S512x64_S64x2048_S512x2048_1_0_0_1_n_n 64 rfl rfl).symm k) = ix2 r k := funext fun a => Fin.ext (by
    match a with
    | ⟨0, _⟩ => exact lhs_qk_0 _ _
    | ⟨1, _⟩ => exact (lhs_qk_1 _ _).trans hk)
  have er : dot_S512x64_S64x2048_S512x2048_1_0_0_1_n_n.rhsIdx (ix2 r j) ((ValueIdx.contrEquiv1 dot_S512x64_S64x2048_S512x2048_1_0_0_1_n_n 64 rfl rfl).symm k) = ix2 k j := funext fun a => Fin.ext (by
    match a with
    | ⟨0, _⟩ => exact (rhs_qk_0 _ _).trans hk
    | ⟨1, _⟩ => exact rhs_qk_1 _ _)
  rw [el, er]

theorem lhs_pv_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_pv_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_pv_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_pv_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Weights times values at (r, v): the sum over the tile's 2048 columns. -/
theorem matmul_pv_apply (lhs : FVec Ideal S512x2048 .bf16) (rhs : FVec Ideal S2048x64 .bf16) (r : Fin 512) (v : Fin 64) :
    matmul dot_S512x2048_S2048x64_S512x64_1_0_0_1_n_n none lhs rhs (constant (F := Ideal) S512x64 .f32 0x00000000#32) (ix2 r v)
      = ∑ k : Fin 2048, lhs (ix2 r k) * rhs (ix2 k v) := by
  refine (Ideal.matmul_constant_zero_apply dot_S512x2048_S2048x64_S512x64_1_0_0_1_n_n none lhs rhs (ix2 r v)).trans ?_
  rw [← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 r v) ((ValueIdx.contrEquiv1 dot_S512x2048_S2048x64_S512x64_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S512x2048_S2048x64_S512x64_1_0_0_1_n_n.rhsIdx (ix2 r v) ((ValueIdx.contrEquiv1 dot_S512x2048_S2048x64_S512x64_1_0_0_1_n_n 2048 rfl rfl).symm k) = ix2 k v := funext fun a => Fin.ext (by
    match a with
    | ⟨0, _⟩ => exact (rhs_pv_0 _ _).trans hk
    | ⟨1, _⟩ => exact rhs_pv_1 _ _)
  rw [el, er]

/-! ## The tile of a resident block, and the constants -/

/-- Row j of the point's tile is row (column tile) · 2048 + j of the resident block. -/
theorem tile_apply (i : grid0.Coords) (x : Vec Ideal S16384x64 .bf16) (j : Fin 2048) (d : Fin 64) :
    tile (F := Ideal) i x (ix2 j d) = x (ix2 (col (i 1).val j) d) := by
  unfold tile
  show x ((Rect.unit (s := S16384x64) (k0_off1 i) S2048x64.size (k0_off1_inb i)).idx (ix2 j d)) = _
  refine congrArg x (funext fun a => Fin.ext ?_)
  have h8 : (i 1).val < 8 := (i 1).isLt
  match a with
  | ⟨0, _⟩ =>
    show k0_off1 i 0 + 1 * j.val = ((i 1).val % 8) * 2048 + j.val
    rw [k0_off1_eq i]
    show 2048 * (i 1).val + 1 * j.val = _
    omega
  | ⟨1, _⟩ =>
    show k0_off1 i 1 + 1 * d.val = d.val
    rw [k0_off1_eq i]
    show 0 + 1 * d.val = _
    omega

/-- The mask's fill value is −∞. -/
theorem neg_big_eq : Named.named (F := Ideal) κ "neg_big" (φ := .f32) 0xFF333332#32 = (⊥ : EReal) :=
  IdealRules.named_const.ideal_named_scalar _ _ _ _ rfl

/-- The f32 zero word is 0. -/
theorem scalar_zero_eq : Scalar.ofBits (F := Ideal) .f32 0x00000000#32 = (0 : EReal) :=
  Ideal.ofBits_zero_f32

/-! ## The pointwise pieces -/

/-- A select on a one-bit word is the `if` on the word being 1, decided. -/
theorem select_decide {α : Type} (c : BitVec 1) (A B : α) :
    Scalar.select c A B = if decide (c = 1#1) = true then A else B := by
  rcases BitVec.eq_zero_or_eq_one c with h | h <;> subst h <;> rfl

variable (i : grid0.Coords)
variable (x0 : Vec Ideal S512x64 .bf16) (x1 : Vec Ideal S16384x64 .bf16) (x2 : Vec Ideal S16384x64 .bf16) (x3 : Vec Ideal S512x2048 .f32) (x4 : Vec Ideal S512x2048 .i32) (xs0 : Vec Ideal S512x1 .f32) (xs1 : Vec Ideal S512x1 .f32) (xs2 : Vec Ideal S512x64 .f32)

/-- The raw logit of row r against column j of the point's tile. -/
theorem pay9_apply (r : Fin 512) (j : Fin 2048) :
    k0_pay9 (F := Ideal) (tile i x1) x0 (ix2 r j) = rawAt x0 x1 r (col (i 1).val j) := by
  unfold k0_pay9 rawAt
  refine (mulf_apply _ _ _).trans ?_
  rw [shapeCast_self, shapeCast_self]
  refine congrArg (· * Ideal.ofBits .f32 0x3E000000#32) ?_
  refine (matmul_qk_apply _ _ r j).trans ?_
  refine Finset.sum_congr rfl fun d _ => ?_
  rw [transpose_ix2_apply, tile_apply]

/-- The hard mask's bit at (r, j). -/
theorem pay10_apply (r : Fin 512) (j : Fin 2048) :
    k0_pay10 (F := Ideal) x4 (ix2 r j) = IntOp.cmpi .sgt (x4 (ix2 r j)) 0#32 := rfl

/-- The new maximum of row r. -/
theorem pay11_apply (r : Fin 512) :
    k0_pay11 (F := Ideal) (tile i x1) x0 x4 xs0 (ix2 r 0)
      = newMax (xs0 (ix2 r 0)) (fun j => rawAt x0 x1 r (col (i 1).val j)) (fun j => onAt x4 r j) := by
  unfold k0_pay11 newMax tileMax
  refine (maximumf_apply _ _ _).trans ?_
  refine congrArg (max (xs0 (ix2 r 0))) ?_
  refine (shapeCast_a_a1_apply _ shapeCasts_S512_S512x1 r 0).trans ?_
  refine (rowMax_apply _ r).trans ?_
  refine congrArg (fun f : Fin 2048 → EReal => (Finset.univ : Finset (Fin 2048)).fold max ⊥ f) (funext fun j => ?_)
  refine (select_apply _ _ _ _).trans ?_
  refine (select_decide _ _ _).trans ?_
  rw [pay9_apply]
  show (if decide (k0_pay10 (F := Ideal) x4 (ix2 r j) = 1#1) = true then rawAt x0 x1 r (col (i 1).val j)
      else Named.named (F := Ideal) κ "neg_big" (φ := .f32) 0xFF333332#32) = _
  rw [neg_big_eq]
  rfl

/-- The rescaling factor of row r. -/
theorem pay12_apply (r : Fin 512) :
    k0_pay12 (F := Ideal) (tile i x1) x0 x4 xs0 (ix2 r 0)
      = rescale (xs0 (ix2 r 0)) (fun j => rawAt x0 x1 r (col (i 1).val j)) (fun j => onAt x4 r j) := by
  unfold k0_pay12 rescale
  show Ideal.exp (xs0 (ix2 r 0) - k0_pay11 (F := Ideal) (tile i x1) x0 x4 xs0 (ix2 r 0)) = _
  rw [pay11_apply]

/-- The weight of column j for row r. -/
theorem pay13_apply (r : Fin 512) (j : Fin 2048) :
    k0_pay13 (F := Ideal) (tile i x1) x0 x4 xs0 x3 (ix2 r j)
      = weight (xs0 (ix2 r 0)) (fun j => rawAt x0 x1 r (col (i 1).val j)) (fun j => onAt x4 r j) (fun j => x3 (ix2 r j)) j := by
  unfold k0_pay13 weight
  refine (select_apply _ _ _ _).trans ?_
  refine (select_decide _ _ _).trans ?_
  show (if decide (k0_pay10 (F := Ideal) x4 (ix2 r j) = 1#1) = true then
        Ideal.exp (k0_pay9 (F := Ideal) (tile i x1) x0 (ix2 r j)
          - broadcastTo S512x2048 (k0_pay11 (F := Ideal) (tile i x1) x0 x4 xs0) broadcasts_S512x1_S512x2048 (ix2 r j)) * x3 (ix2 r j)
      else Scalar.ofBits (F := Ideal) .f32 0x00000000#32) = _
  rw [pay9_apply, broadcastTo_a1_ab_apply, pay11_apply, scalar_zero_eq]
  rfl

end StepAt

open StepAt

variable (i : grid0.Coords)
variable (x0 : Vec Ideal S512x64 .bf16) (x1 : Vec Ideal S16384x64 .bf16) (x2 : Vec Ideal S16384x64 .bf16) (x3 : Vec Ideal S512x2048 .f32) (x4 : Vec Ideal S512x2048 .i32) (xs0 : Vec Ideal S512x1 .f32) (xs1 : Vec Ideal S512x1 .f32) (xs2 : Vec Ideal S512x64 .f32)

/-! ## The reset values and the four step functions, at an entry -/

/-- The reset values: −∞ for the maximum, 0 for the two sums. -/
theorem pay5_apply (r : Fin 512) : k0_pay5 (F := Ideal) (ix2 r 0) = ⊥ := by
  unfold k0_pay5
  rw [shapeCast_self]
  exact ofBits_neg_inf

theorem pay6_apply (r : Fin 512) : k0_pay6 (F := Ideal) (ix2 r 0) = 0 := by
  unfold k0_pay6
  rw [shapeCast_self]
  exact scalar_zero_eq

theorem pay7_apply (r : Fin 512) (v : Fin 64) : k0_pay7 (F := Ideal) (ix2 r v) = 0 := by
  unfold k0_pay7
  rw [shapeCast_self]
  exact scalar_zero_eq

/-- Row r's new maximum: the old one against the largest admitted raw logit of the point's 2048 columns. -/
theorem stepMax_apply (r : Fin 512) :
    stepMax (F := Ideal) i x0 x1 x4 xs0 (ix2 r 0)
      = newMax (xs0 (ix2 r 0)) (fun j => rawAt x0 x1 r (col (i 1).val j)) (fun j => onAt x4 r j) := by
  unfold stepMax k0_pay3
  rw [shapeCast_self]
  exact pay11_apply i x0 x1 x4 xs0 r

/-- Row r's new denominator. -/
theorem stepDen_apply (r : Fin 512) :
    stepDen (F := Ideal) i x0 x1 x3 x4 xs0 xs1 (ix2 r 0)
      = newDen (xs0 (ix2 r 0)) (xs1 (ix2 r 0)) (fun j => rawAt x0 x1 r (col (i 1).val j)) (fun j => onAt x4 r j)
          (fun j => x3 (ix2 r j)) := by
  unfold stepDen k0_pay1 newDen
  rw [shapeCast_self]
  refine (addf_apply _ _ _).trans ?_
  refine congrArg₂ (· + ·) ?_ ?_
  · refine (mulf_apply _ _ _).trans ?_
    rw [pay12_apply]
  · refine (shapeCast_a_a1_apply _ shapeCasts_S512_S512x1 r 0).trans ?_
    refine (rowSum_apply _ r).trans ?_
    exact Finset.sum_congr rfl fun j _ => pay13_apply i x0 x1 x3 x4 xs0 r j

/-- Row r's new numerator in value column v. -/
theorem stepNum_apply (r : Fin 512) (v : Fin 64) :
    stepNum (F := Ideal) i x0 x1 x2 x3 x4 xs0 xs2 (ix2 r v)
      = newNum (xs0 (ix2 r 0)) (xs2 (ix2 r v)) (fun j => rawAt x0 x1 r (col (i 1).val j)) (fun j => onAt x4 r j)
          (fun j => x3 (ix2 r j)) (fun j => x2 (ix2 (col (i 1).val j) v)) := by
  unfold stepNum k0_pay2 k0_pay8 newNum
  rw [shapeCast_self, shapeCast_self]
  refine (addf_apply _ _ _).trans ?_
  refine congrArg₂ (· + ·) ?_ ?_
  · refine (mulf_apply _ _ _).trans ?_
    rw [broadcastTo_a1_ab_apply, pay12_apply]
  · refine (matmul_pv_apply _ _ r v).trans ?_
    refine Finset.sum_congr rfl fun j _ => ?_
    rw [truncf_apply, pay13_apply, tile_apply]

/-- The stored output entry: the new numerator over the new denominator. -/
theorem outBlock_apply (r : Fin 512) (v : Fin 64) :
    outBlock (F := Ideal) i x0 x1 x2 x3 x4 xs0 xs1 xs2 (ix2 r v)
      = Ideal.div (stepNum (F := Ideal) i x0 x1 x2 x3 x4 xs0 xs2 (ix2 r v)) (stepDen (F := Ideal) i x0 x1 x3 x4 xs0 xs1 (ix2 r 0)) := by
  unfold outBlock k0_pay4
  refine (divf_apply _ _ _).trans ?_
  rw [broadcastTo_a1_ab_apply]

end Cert.KernelIdeal.KerValue

end
-- ==== Proof.KerBlocks.lean ====
/-
  The input blocks of a grid point read entry by entry: the query block is rows of the query projection, the key and value blocks are the whole key projection and value array, the two mask blocks are windows of the mask arrays.
-/
import proofs.«406999_j21242908246230_3_alg».proof.Proof.KerDefs
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KerValue

open Idealize.ShloMosaic Idealize.ShloMosaic.TcCoe Idealize.ShloMosaic.Tactic
open Idealize.SL Idealize.SL.Sem
open Idealize.ShloMosaic.ValueIdx
open Cert.KernelIdeal Cert.KernelIdeal.Gen OnlineSoftmax

variable (m : (ℓ : Loc nD τ sig) → Buf (Elt Ideal) ℓ) (c : Dev nD) (t : Fin cfg0.N)

/-- The grid walks the column tiles fastest: point t is row tile t / 8, column tile t % 8. -/
theorem coords_row : (grid0.coords t 0).val = t.val / 8 :=
  (by decide +kernel : ∀ t : Fin grid0.N, (grid0.coords t 0).val = t.val / 8) t

theorem coords_col : (grid0.coords t 1).val = t.val % 8 :=
  (by decide +kernel : ∀ t : Fin grid0.N, (grid0.coords t 1).val = t.val % 8) t

/-! ## The two projections at an entry: the dimension numbers axis by axis, the product as a sum, the bias -/

theorem lhsQ_0 (i : S4096x64.Idx) (q : dot_S4096x128_S128x64_S4096x64_1_0_0_1_n_n.contr.Idx) :
    (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
theorem lhsQ_1 (i : S4096x64.Idx) (q : dot_S4096x128_S128x64_S4096x64_1_0_0_1_n_n.contr.Idx) :
    (dot_S4096x128_S128x64_S4096x64_1_0_0_1_n_n.lhsIdx i q 1).val = (q ⟨0, by decide⟩).val :=
  dot_S4096x128_S128x64_S4096x64_1_0_0_1_n_n.lhsIdx_val_of_single rfl i q
theorem rhsQ_0 (i : S4096x64.Idx) (q : dot_S4096x128_S128x64_S4096x64_1_0_0_1_n_n.contr.Idx) :
    (dot_S4096x128_S128x64_S4096x64_1_0_0_1_n_n.rhsIdx i q 0).val = (q ⟨0, by decide⟩).val :=
  dot_S4096x128_S128x64_S4096x64_1_0_0_1_n_n.rhsIdx_val_of_single rfl i q
theorem rhsQ_1 (i : S4096x64.Idx) (q : dot_S4096x128_S128x64_S4096x64_1_0_0_1_n_n.contr.Idx) :
    (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl

/-- The query projection's product at an entry: the sum over the 128 input coordinates. -/
theorem dotQ_apply (x2 : FVec Ideal S4096x128 .f32) (x7 : FVec Ideal S128x64 .f32) (q : Fin 4096) (d : Fin 64) :
    Host.dotGeneral (F := Ideal) dot_S4096x128_S128x64_S4096x64_1_0_0_1_n_n none x2 x7 (ix2 q d)
      = ∑ k : Fin 128, x2 (ix2 q k) * x7 (ix2 k d) := by
  simp only [Host.dotGeneral]
  rw [Ideal.dotGeneral_apply, ← Equiv.sum_comp (ValueIdx.contrEquiv1 dot_S4096x128_S128x64_S4096x64_1_0_0_1_n_n 128 rfl rfl).symm]
  refine Finset.sum_congr rfl fun k _ => ?_
  have hk := ValueIdx.contrEquiv1_symm_val dot_S4096x128_S128x64_S4096x64_1_0_0_1_n_n 128 rfl rfl k
  have el : dot_S4096x128_S128x64_S4096x64_1_0_0_1_n_n.lhsIdx (ix2 q d) ((ValueIdx.contrEquiv1 dot_S4096x128_S128x64_S4096x64_1_0_0_1_n_n 128 rfl rfl).symm k) = ix2 q k := funext fun a => Fin.ext (by
    match a with
    | ⟨0, _⟩ => exact lhsQ_0 _ _
    | ⟨1, _⟩ => exact (lhsQ_1 _ _).trans hk)
  have er : dot_S4096x128_S128x64_S4096x64_1_0_0_1_n_n.rhsIdx (ix2 q d) ((ValueIdx.contrEquiv1 dot_S4096x128_S128x64_S4096x64_1_0_0_1_n_n 128 rfl rfl).symm k) = ix2 k d := funext fun a => Fin.ext (by
    match a with
    | ⟨0, _⟩ => exact (rhsQ_0 _ _).trans hk
    | ⟨1, _⟩ => exact rhsQ_1 _ _)
  rw [el, er]

/-- The query bias broadcast along the rows, at an entry. -/
theorem biasQ_apply (x8 : FVec Ideal S64 .f32) (h1 : S64.BroadcastsInDim S1x64 (![1] : Fin 1 → Fin S1x64.rank))
    (h2 : S1x64.BroadcastsInDim S4096x64 (![0, 1] : Fin 2 → Fin S4096x64.rank)) (q : Fin 4096) (d : Fin 64) :
    broadcastInDim S4096x64 ![0, 1] h2 (broadcastInDim S1x64 ![1] h1 x8) (ix2 q d) = x8 (ix1 d) := by
  generalize hy : broadcastInDim S1x64 ![1] h1 x8 = y
  refine (broadcastInDim_apply _ h2 y (ix2 q d) (ix2 (0 : Fin 1) d) (fun a => match a with
    | ⟨0, _⟩ => by show 0 = if (1 : Nat) = 1 then 0 else q.val; rw [if_pos rfl]
    | ⟨1, _⟩ => by show d.val = if (64 : Nat) = 1 then 0 else d.val; rw [if_neg (by decide)])).trans ?_
  subst hy
  exact broadcastInDim_apply _ h1 x8 (ix2 (0 : Fin 1) d) (ix1 d) (fun a => match a with
    | ⟨0, _⟩ => by show d.val = if (64 : Nat) = 1 then 0 else d.val; rw [if_neg (by decide)])

theorem lhsK_0 (i : S16384x64.Idx) (q : dot_S16384x128_S128x64_S16384x64_1_0_0_1_n_n.contr.Idx) :
    (dot_S16384x128_S128x64_S16384x64_1_0_0_1_n_n.lhsIdx i q 0).val = (i 0).val := by
  unfold DotDims.lhsIdx
  rw [dif_neg (show ¬(0 : Fin S16384x128.rank) ∈ dot_S16384x128_S128x64_S16384x64_1_0_0_1_n_n.lhsBatch by decide), dif_pos (show (0 : Fin S16384x128.rank) ∈ dot_S16384x128_S128x64_S16384x64_1_0_0_1_n_n.lhsNonContracting by decide)]
  rfl
theorem lhsK_1 (i : S16384x64.Idx) (q : dot_S16384x128_S128x64_S16384x64_1_0_0_1_n_n.contr.Idx) :
    (dot_S16384x128_S128x64_S16384x64_1_0_0_1_n_n.lhsIdx i q 1).val = (q ⟨0, by decide⟩).val :=
  dot_S16384x128_S128x64_S16384x64_1_0_0_1_n_n.lhsIdx_val_of_single rfl i q
theorem rhsK_0 (i : S16384x64.Idx) (q : dot_S16384x128_S128x64_S16384x64_1_0_0_1_n_n.contr.Idx) :
    (dot_S16384x128_S128x64_S16384x64_1_0_0_1_n_n.rhsIdx i q 0).val = (q ⟨0, by decide⟩).val :=
  dot_S16384x128_S128x64_S16384x64_1_0_0_1_n_n.rhsIdx_val_of_single rfl i q
theorem rhsK_1 (i : S16384x64.Idx) (q : dot_S16384x128_S128x64_S16384x64_1_0_0_1_n_n.contr.Idx) :
    (dot_S16384x128_S128x64_S16384x64_1_0_0_1_n_n.rhsIdx i q 1).val = (i 1).val := by
  unfold DotDims.rhsIdx
  rw [dif_neg (show ¬(1 : Fin S128x64.rank) ∈ dot_S16384x128_S128x64_S16384x64_1_0_0_1_n_n.rhsBatch by decide), dif_pos (show (1 : Fin S128x64.rank) ∈ dot_S16384x128_S128x64_S16384x64_1_0_0_1_n_n.rhsNonContracting by decide)]
  rfl

/-- The key projection's product at an entry: the sum over the 128 input coordinates. -/
theorem dotK_apply (x0 : FVec Ideal S16384x128 .f32) (x5 : FVec Ideal S128x64 .f32) (s : Fin 16384) (d : Fin 64) :
    Host.dotGeneral (F := Ideal) dot_S16384x128_S128x64_S16384x64_1_0_0_1_n_n none x0 x5 (ix2 s d)
      = ∑ k : Fin 128, x0 (ix2 s k) * x5 (ix2 k d) := by
  simp only [Host.dotGeneral]
  rw [Ideal.dotGeneral_apply, ← Equiv.sum_comp (ValueIdx.contrEquiv1 dot_S16384x128_S128x64_S16384x64_1_0_0_1_n_n 128 rfl rfl).symm]
  refine Finset.sum_congr rfl fun k _ => ?_
  have hk := ValueIdx.contrEquiv1_symm_val dot_S16384x128_S128x64_S16384x64_1_0_0_1_n_n 128 rfl rfl k
  have el : dot_S16384x128_S128x64_S16384x64_1_0_0_1_n_n.lhsIdx (ix2 s d) ((ValueIdx.contrEquiv1 dot_S16384x128_S128x64_S16384x64_1_0_0_1_n_n 128 rfl rfl).symm k) = ix2 s k := funext fun a => Fin.ext (by
    match a with
    | ⟨0, _⟩ => exact lhsK_0 _ _
    | ⟨1, _⟩ => exact (lhsK_1 _ _).trans hk)
  have er : dot_S16384x128_S128x64_S16384x64_1_0_0_1_n_n.rhsIdx (ix2 s d) ((ValueIdx.contrEquiv1 dot_S16384x128_S128x64_S16384x64_1_0_0_1_n_n 128 rfl rfl).symm k) = ix2 k d := funext fun a => Fin.ext (by
    match a with
    | ⟨0, _⟩ => exact (rhsK_0 _ _).trans hk
    | ⟨1, _⟩ => exact rhsK_1 _ _)
  rw [el, er]

/-- The key bias broadcast along the rows, at an entry. -/
theorem biasK_apply (x6 : FVec Ideal S64 .f32) (h1 : S64.BroadcastsInDim S1x64 (![1] : Fin 1 → Fin S1x64.rank))
    (h2 : S1x64.BroadcastsInDim S16384x64 (![0, 1] : Fin 2 → Fin S16384x64.rank)) (s : Fin 16384) (d : Fin 64) :
    broadcastInDim S16384x64 ![0, 1] h2 (broadcastInDim S1x64 ![1] h1 x6) (ix2 s d) = x6 (ix1 d) := by
  generalize hy : broadcastInDim S1x64 ![1] h1 x6 = y
  refine (broadcastInDim_apply _ h2 y (ix2 s d) (ix2 (0 : Fin 1) d) (fun a => match a with
    | ⟨0, _⟩ => by show 0 = if (1 : Nat) = 1 then 0 else s.val; rw [if_pos rfl]
    | ⟨1, _⟩ => by show d.val = if (64 : Nat) = 1 then 0 else d.val; rw [if_neg (by decide)])).trans ?_
  subst hy
  exact broadcastInDim_apply _ h1 x6 (ix2 (0 : Fin 1) d) (ix1 d) (fun a => match a with
    | ⟨0, _⟩ => by show d.val = if (64 : Nat) = 1 then 0 else d.val; rw [if_neg (by decide)])

/-! ## The staged arrays as the region finds them: what the operations before the region wrote -/

/-- The queries' array: the query projection, rounded to the storage format (the identity on the extended reals). -/
theorem V_main_v9 : (V m c main_v9 : FVec Ideal S4096x64 .bf16) = truncf .bf16 (addf (Host.dotGeneral (F := Ideal) dot_S4096x128_S128x64_S4096x64_1_0_0_1_n_n none (a2 m c) (a7 m c))
      (broadcastInDim S4096x64 ![0, 1] Gen.bcast_S1x64_S4096x64_0_1 (broadcastInDim S1x64 ![1] Gen.bcast_S64_S1x64_1 (a8 m c)))) Gen.bitsLt_bf16_f32 := by
  show StableHlo.after hostOps0 (fun b => m (c, b)) (Proc.devRef .tc main_v9) = _
  after_results <;> rfl

/-- The keys' array: the key projection. -/
theorem V_main_v4 : (V m c main_v4 : FVec Ideal S16384x64 .bf16) = truncf .bf16 (addf (Host.dotGeneral (F := Ideal) dot_S16384x128_S128x64_S16384x64_1_0_0_1_n_n none (a0 m c) (a5 m c))
      (broadcastInDim S16384x64 ![0, 1] Gen.bcast_S1x64_S16384x64_0_1 (broadcastInDim S1x64 ![1] Gen.bcast_S64_S1x64_1 (a6 m c)))) Gen.bitsLt_bf16_f32 := by
  show StableHlo.after hostOps0 (fun b => m (c, b)) (Proc.devRef .tc main_v4) = _
  after_results <;> rfl

/-- The values' array: the value argument. -/
theorem V_main_v10 : (V m c main_v10 : FVec Ideal S16384x64 .bf16) = truncf .bf16 (a1 m c) Gen.bitsLt_bf16_f32 := by
  show StableHlo.after hostOps0 (fun b => m (c, b)) (Proc.devRef .tc main_v10) = _
  after_results <;> rfl

/-! ## The blocks -/

/-- The printed index maps in closed form, decided over the grid: the query block follows the row tile, the key and value
    blocks never move, the mask blocks follow the row tile and the column tile. -/
theorem idx_facts : ∀ t : Fin cfg0.N, win0_0.index t (0 : Fin 2) = t.val / 8 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = t.val % 8
    ∧ win0_4.index t (0 : Fin 2) = t.val / 8 ∧ win0_4.index t (1 : Fin 2) = t.val % 8 :=
  (by decide +kernel : ∀ t : Fin grid0.N, _)

/-- Row r of the query block is query row (t / 8) · 512 + r of the query projection. -/
theorem qBlk_apply (r : Fin 512) (d : Fin 64) :
    qBlk m c t (ix2 r d) = proj (mat (a2 m c)) (mat (a7 m c)) (vec (a8 m c)) (qRow t r) d := by
  obtain ⟨e0, e1, -⟩ := idx_facts t
  have e : ((cfg0.win 0).blk t).view.emb (ix2 r d) = (ix2 (qRow t r) d : S4096x64.Idx) := by
    funext a; apply Fin.ext
    match a with
    | ⟨0, _⟩ => show win0_0.index t (0 : Fin 2) * 512 + 1 * r.val = (t.val / 8) * 512 + r.val; rw [e0]; omega
    | ⟨1, _⟩ => show win0_0.index t (1 : Fin 2) * 64 + 1 * d.val = d.val; rw [e1]; omega
  show V m c main_v9 (((cfg0.win 0).blk t).view.emb (ix2 r d)) = _
  rw [e, V_main_v9]
  show (Host.dotGeneral (F := Ideal) dot_S4096x128_S128x64_S4096x64_1_0_0_1_n_n none (a2 m c) (a7 m c) (ix2 (qRow t r) d))
      + (broadcastInDim S4096x64 ![0, 1] Gen.bcast_S1x64_S4096x64_0_1 (broadcastInDim S1x64 ![1] Gen.bcast_S64_S1x64_1 (a8 m c))) (ix2 (qRow t r) d) = _
  rw [dotQ_apply, biasQ_apply]
  rfl

/-- The key block is the whole key projection. -/
theorem kBlk_apply (s : Fin 16384) (d : Fin 64) :
    kBlk m c t (ix2 s d) = proj (mat (a0 m c)) (mat (a5 m c)) (vec (a6 m c)) s d := by
  obtain ⟨-, -, e0, e1, -⟩ := idx_facts t
  have e : ((cfg0.win 1).blk t).view.emb (ix2 s d) = (ix2 s d : S16384x64.Idx) := by
    funext a; apply Fin.ext
    match a with
    | ⟨0, _⟩ => show win0_1.index t (0 : Fin 2) * 16384 + 1 * s.val = s.val; rw [e0]; omega
    | ⟨1, _⟩ => show win0_1.index t (1 : Fin 2) * 64 + 1 * d.val = d.val; rw [e1]; omega
  show V m c main_v4 (((cfg0.win 1).blk t).view.emb (ix2 s d)) = _
  rw [e, V_main_v4]
  show (Host.dotGeneral (F := Ideal) dot_S16384x128_S128x64_S16384x64_1_0_0_1_n_n none (a0 m c) (a5 m c) (ix2 s d))
      + (broadcastInDim S16384x64 ![0, 1] Gen.bcast_S1x64_S16384x64_0_1 (broadcastInDim S1x64 ![1] Gen.bcast_S64_S1x64_1 (a6 m c))) (ix2 s d) = _
  rw [dotK_apply, biasK_apply]
  rfl

/-- The value block is the whole value array. -/
theorem vBlk_apply (s : Fin 16384) (v : Fin 64) : vBlk m c t (ix2 s v) = mat (a1 m c) s v := by
  obtain ⟨-, -, -, -, e0, e1, -⟩ := idx_facts t
  have e : ((cfg0.win 2).blk t).view.emb (ix2 s v) = (ix2 s v : S16384x64.Idx) := by
    funext a; apply Fin.ext
    match a with
    | ⟨0, _⟩ => show win0_2.index t (0 : Fin 2) * 16384 + 1 * s.val = s.val; rw [e0]; omega
    | ⟨1, _⟩ => show win0_2.index t (1 : Fin 2) * 64 + 1 * v.val = v.val; rw [e1]; omega
  show V m c main_v10 (((cfg0.win 2).blk t).view.emb (ix2 s v)) = _
  rw [e, V_main_v10]
  rfl

/-- The soft-mask block: rows of the row tile, columns of the column tile. -/
theorem sBlk_apply (r : Fin 512) (j : Fin 2048) : sBlk m c t (ix2 r j) = mat (a3 m c) (qRow t r) (col t.val j) := by
  obtain ⟨-, -, -, -, -, -, e0, e1, -⟩ := idx_facts t
  have e : ((cfg0.win 3).blk t).view.emb (ix2 r j) = (ix2 (qRow t r) (col t.val j) : S4096x16384.Idx) := by
    funext a; apply Fin.ext
    match a with
    | ⟨0, _⟩ => show win0_3.index t (0 : Fin 2) * 512 + 1 * r.val = (t.val / 8) * 512 + r.val; rw [e0]; omega
    | ⟨1, _⟩ => show win0_3.index t (1 : Fin 2) * 2048 + 1 * j.val = (t.val % 8) * 2048 + j.val; rw [e1]; omega
  show V m c main_arg3 (((cfg0.win 3).blk t).view.emb (ix2 r j)) = _
  rw [e, V_main_arg3]
  rfl

/-- The hard-mask block likewise. -/
theorem mBlk_apply (r : Fin 512) (j : Fin 2048) : mBlk m c t (ix2 r j) = mat (a4 m c) (qRow t r) (col t.val j) := by
  obtain ⟨-, -, -, -, -, -, -, -, e0, e1⟩ := idx_facts t
  have e : ((cfg0.win 4).blk t).view.emb (ix2 r j) = (ix2 (qRow t r) (col t.val j) : S4096x16384.Idx) := by
    funext a; apply Fin.ext
    match a with
    | ⟨0, _⟩ => show win0_4.index t (0 : Fin 2) * 512 + 1 * r.val = (t.val / 8) * 512 + r.val; rw [e0]; omega
    | ⟨1, _⟩ => show win0_4.index t (1 : Fin 2) * 2048 + 1 * j.val = (t.val % 8) * 2048 + j.val; rw [e1]; omega
  show V m c main_arg4 (((cfg0.win 4).blk t).view.emb (ix2 r j)) = _
  rw [e, V_main_arg4]
  rfl

end Cert.KernelIdeal.KerValue

end
-- ==== Proof.KerInduct.lean ====
/-
  Point by point, the carried buffers hold the streamed form's running maximum, denominator and numerator of each query row after the column tiles seen so far; a row tile's last point stores the streamed result.
-/
import proofs.«406999_j21242908246230_3_alg».proof.Proof.KerDefs
import proofs.«406999_j21242908246230_3_alg».proof.Proof.KerPieces
import proofs.«406999_j21242908246230_3_alg».proof.Proof.KerStepAt
import proofs.«406999_j21242908246230_3_alg».proof.Proof.KerBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KerValue

open Idealize.ShloMosaic Idealize.ShloMosaic.TcCoe Idealize.ShloMosaic.Tactic
open Idealize.SL Idealize.SL.Sem
open Idealize.ShloMosaic.ValueIdx
open Cert.KernelIdeal Cert.KernelIdeal.Gen OnlineSoftmax

variable (m : (ℓ : Loc nD τ sig) → Buf (Elt Ideal) ℓ) (c : Dev nD)

/-! ## The streamed form's data, row by row, from the nine arguments -/

/-- The projected queries and keys. -/
def Qm : Fin 4096 → Fin 64 → EReal := proj (mat (a2 m c)) (mat (a7 m c)) (vec (a8 m c))
def Km : Fin 16384 → Fin 64 → EReal := proj (mat (a0 m c)) (mat (a5 m c)) (vec (a6 m c))

/-- Query row q's raw logits, admissions, soft masks and (in value column v) values on column tile n. -/
def aT (q : Fin 4096) (n : ℕ) (j : Fin 2048) : EReal := rawLogit (Qm m c) (Km m c) q (col n j)
def bT (q : Fin 4096) (n : ℕ) (j : Fin 2048) : Bool := admits (a4 m c) q (col n j)
def wT (q : Fin 4096) (n : ℕ) (j : Fin 2048) : EReal := mat (a3 m c) q (col n j)
def yT (v : Fin 64) (n : ℕ) (j : Fin 2048) : EReal := mat (a1 m c) (col n j) v

/-- Columns are numbered modulo the eight tiles. -/
theorem col_mod (n : ℕ) (j : Fin 2048) : col (n % 8) j = col n j := by
  unfold col; exact Fin.ext (by simp only [Nat.mod_mod])

/-! ## A point's blocks are its row tile's rows and its column tile's columns -/

variable (t : Fin cfg0.N) (r : Fin 512)

theorem raw_tile :
    (fun j => rawAt (qBlk m c t) (kBlk m c t) r (col (grid0.coords t 1).val j)) = aT m c (qRow t r) (t.val % 8) := by
  funext j
  unfold rawAt aT rawLogit Qm Km
  rw [coords_col]
  refine congrArg (· * _) (Finset.sum_congr rfl fun d _ => ?_)
  rw [qBlk_apply, kBlk_apply]

theorem on_tile : (fun j => onAt (mBlk m c t) r j) = bT m c (qRow t r) (t.val % 8) := by
  funext j
  unfold onAt bT admits
  rw [mBlk_apply, col_mod]
  rfl

theorem soft_tile : (fun j => sBlk m c t (ix2 r j)) = wT m c (qRow t r) (t.val % 8) := by
  funext j
  unfold wT
  rw [sBlk_apply, col_mod]

theorem val_tile (v : Fin 64) :
    (fun j => vBlk m c t (ix2 (col (grid0.coords t 1).val j) v)) = yT m c v (t.val % 8) := by
  funext j
  unfold yT
  rw [vBlk_apply, coords_col]

/-! ## One point's step, on a row whose carried values are the streamed form's after n tiles -/

theorem step_closed (xs0 xs1 : Vec Ideal S512x1 .f32) (xs2 : Vec Ideal S512x64 .f32) (n : ℕ) (hn : t.val % 8 = n)
    (h0 : xs0 (ix2 r 0) = maxAfter (aT m c (qRow t r)) (bT m c (qRow t r)) n)
    (h1 : xs1 (ix2 r 0) = denAfter (aT m c (qRow t r)) (bT m c (qRow t r)) (wT m c (qRow t r)) n)
    (h2 : ∀ v, xs2 (ix2 r v) = numAfter (aT m c (qRow t r)) (bT m c (qRow t r)) (wT m c (qRow t r)) (yT m c v) n) :
    stepMax (F := Ideal) (grid0.coords t) (qBlk m c t) (kBlk m c t) (mBlk m c t) xs0 (ix2 r 0)
        = maxAfter (aT m c (qRow t r)) (bT m c (qRow t r)) (n + 1)
    ∧ stepDen (F := Ideal) (grid0.coords t) (qBlk m c t) (kBlk m c t) (sBlk m c t) (mBlk m c t) xs0 xs1 (ix2 r 0)
        = denAfter (aT m c (qRow t r)) (bT m c (qRow t r)) (wT m c (qRow t r)) (n + 1)
    ∧ ∀ v, stepNum (F := Ideal) (grid0.coords t) (qBlk m c t) (kBlk m c t) (vBlk m c t) (sBlk m c t) (mBlk m c t) xs0 xs2 (ix2 r v)
        = numAfter (aT m c (qRow t r)) (bT m c (qRow t r)) (wT m c (qRow t r)) (yT m c v) (n + 1) := by
  subst hn
  refine ⟨?_, ?_, fun v => ?_⟩
  · rw [stepMax_apply, raw_tile, on_tile, h0]; rfl
  · rw [stepDen_apply, raw_tile, on_tile, soft_tile, h0, h1]; rfl
  · rw [stepNum_apply, raw_tile, on_tile, soft_tile, val_tile, h0, h2 v]; rfl

/-! ## The induction over the grid's points -/

/-- Row r of the row tile of point n, for any natural n below the grid's size. -/
def rowAt (n : ℕ) (hn : n < cfg0.N) (r : Fin 512) : Fin 4096 := qRow ⟨n, hn⟩ r

/-- The carried buffers after point n hold, on row r, the streamed form after n % 8 + 1 tiles. -/
def Holds (n : ℕ) (hn : n < cfg0.N) (r : Fin 512) : Prop :=
  (outsAt0 m c n hn).2.1 (ix2 r 0)
      = maxAfter (aT m c (rowAt n hn r)) (bT m c (rowAt n hn r)) (n % 8 + 1)
  ∧ (outsAt0 m c n hn).2.2.1 (ix2 r 0)
      = denAfter (aT m c (rowAt n hn r)) (bT m c (rowAt n hn r)) (wT m c (rowAt n hn r)) (n % 8 + 1)
  ∧ ∀ v, (outsAt0 m c n hn).2.2.2 (ix2 r v)
      = numAfter (aT m c (rowAt n hn r)) (bT m c (rowAt n hn r)) (wT m c (rowAt n hn r)) (yT m c v) (n % 8 + 1)

/-- A column tile's first point resets and steps: the form after one tile. -/
theorem holds_first (t : Fin cfg0.N) (r : Fin 512) (h0 : t.val % 8 = 0) : Holds m c t.val t.isLt r := by
  have h1 : ¬t.val % 8 = 7 := by omega
  have hs := step_closed m c t r (k0_pay5 (F := Ideal)) (k0_pay6 (F := Ideal)) (k0_pay7 (F := Ideal)) (t.val % 8) rfl
    (by rw [h0]; exact pay5_apply r) (by rw [h0]; exact pay6_apply r) (fun v => by rw [h0]; exact pay7_apply r v)
  unfold Holds
  rw [outsAt0_A m c t h0 h1]
  dsimp only
  refine ⟨?_, ?_, fun v => ?_⟩
  · refine (congrFun (sout0_A_0_eq (F := Ideal) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := scM0_0) (harg8 := Memref.isWhole_whole _) (arg9 := scM0_1) (harg9 := Memref.isWhole_whole _) (arg10 := scM0_2) (harg10 := Memref.isWhole_whole _) (x0 := qBlk m c t) (x1 := kBlk m c t) (x2 := vBlk m c t) (x3 := sBlk m c t) (x4 := mBlk m c t) ((hcond0_0 t).mpr h0) (fun h => h1 ((hcond0_1 t).mp h))) (ix2 r 0)).trans ?_
    exact hs.1
  · refine (congrFun (sout0_A_1_eq (F := Ideal) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := scM0_0) (harg8 := Memref.isWhole_whole _) (arg9 := scM0_1) (harg9 := Memref.isWhole_whole _) (arg10 := scM0_2) (harg10 := Memref.isWhole_whole _) (x0 := qBlk m c t) (x1 := kBlk m c t) (x2 := vBlk m c t) (x3 := sBlk m c t) (x4 := mBlk m c t) ((hcond0_0 t).mpr h0) (fun h => h1 ((hcond0_1 t).mp h))) (ix2 r 0)).trans ?_
    exact hs.2.1
  · refine (congrFun (sout0_A_2_eq (F := Ideal) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := scM0_0) (harg8 := Memref.isWhole_whole _) (arg9 := scM0_1) (harg9 := Memref.isWhole_whole _) (arg10 := scM0_2) (harg10 := Memref.isWhole_whole _) (x0 := qBlk m c t) (x1 := kBlk m c t) (x2 := vBlk m c t) (x3 := sBlk m c t) (x4 := mBlk m c t) ((hcond0_0 t).mpr h0) (fun h => h1 ((hcond0_1 t).mp h))) (ix2 r v)).trans ?_
    exact hs.2.2 v

/-- The point before a point that is not a tile's first is in the same row tile, one column tile earlier. -/
theorem rowAt_pred (t : Fin cfg0.N) (r : Fin 512) (h0 : ¬t.val % 8 = 0) :
    rowAt (t.val - 1) (Nat.lt_of_le_of_lt (Nat.sub_le _ _) t.isLt) r = qRow t r := by
  unfold rowAt qRow
  refine Fin.ext ?_
  show (t.val - 1) / 8 * 512 + r.val = t.val / 8 * 512 + r.val
  have : (t.val - 1) / 8 = t.val / 8 := by omega
  rw [this]

/-- What the step needs of the point before, from its `Holds`. -/
theorem prev_closed (t : Fin cfg0.N) (r : Fin 512) (h0 : ¬t.val % 8 = 0)
    (ih : Holds m c (t.val - 1) (Nat.lt_of_le_of_lt (Nat.sub_le _ _) t.isLt) r) :
    (outsAt0 m c (t.val - 1) (Nat.lt_of_le_of_lt (Nat.sub_le _ _) t.isLt)).2.1 (ix2 r 0)
        = maxAfter (aT m c (qRow t r)) (bT m c (qRow t r)) (t.val % 8)
    ∧ (outsAt0 m c (t.val - 1) (Nat.lt_of_le_of_lt (Nat.sub_le _ _) t.isLt)).2.2.1 (ix2 r 0)
        = denAfter (aT m c (qRow t r)) (bT m c (qRow t r)) (wT m c (qRow t r)) (t.val % 8)
    ∧ ∀ v, (outsAt0 m c (t.val - 1) (Nat.lt_of_le_of_lt (Nat.sub_le _ _) t.isLt)).2.2.2 (ix2 r v)
        = numAfter (aT m c (qRow t r)) (bT m c (qRow t r)) (wT m c (qRow t r)) (yT m c v) (t.val % 8) := by
  have hk : (t.val - 1) % 8 + 1 = t.val % 8 := by omega
  unfold Holds at ih
  rw [rowAt_pred t r h0, hk] at ih
  exact ih

/-- A middle point steps what the point before left. -/
theorem holds_middle (t : Fin cfg0.N) (r : Fin 512) (h0 : ¬t.val % 8 = 0) (h1 : ¬t.val % 8 = 7)
    (ih : Holds m c (t.val - 1) (Nat.lt_of_le_of_lt (Nat.sub_le _ _) t.isLt) r) : Holds m c t.val t.isLt r := by
  obtain ⟨p0, p1, p2⟩ := prev_closed m c t r h0 ih
  have hs := step_closed m c t r _ _ _ (t.val % 8) rfl p0 p1 p2
  unfold Holds
  rw [outsAt0_B m c t h0 h1]
  dsimp only
  refine ⟨?_, ?_, fun v => ?_⟩
  · refine (congrFun (sout0_B_0_eq (F := Ideal) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := scM0_0) (harg8 := Memref.isWhole_whole _) (arg9 := scM0_1) (harg9 := Memref.isWhole_whole _) (arg10 := scM0_2) (harg10 := Memref.isWhole_whole _) (x0 := qBlk m c t) (x1 := kBlk m c t) (x2 := vBlk m c t) (x3 := sBlk m c t) (x4 := mBlk m c t) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (fun h => h0 ((hcond0_0 t).mp h)) (fun h => h1 ((hcond0_1 t).mp h))) (ix2 r 0)).trans ?_
    exact hs.1
  · refine (congrFun (sout0_B_1_eq (F := Ideal) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := scM0_0) (harg8 := Memref.isWhole_whole _) (arg9 := scM0_1) (harg9 := Memref.isWhole_whole _) (arg10 := scM0_2) (harg10 := Memref.isWhole_whole _) (x0 := qBlk m c t) (x1 := kBlk m c t) (x2 := vBlk m c t) (x3 := sBlk m c t) (x4 := mBlk m c t) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (fun h => h0 ((hcond0_0 t).mp h)) (fun h => h1 ((hcond0_1 t).mp h))) (ix2 r 0)).trans ?_
    exact hs.2.1
  · refine (congrFun (sout0_B_2_eq (F := Ideal) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := scM0_0) (harg8 := Memref.isWhole_whole _) (arg9 := scM0_1) (harg9 := Memref.isWhole_whole _) (arg10 := scM0_2) (harg10 := Memref.isWhole_whole _) (x0 := qBlk m c t) (x1 := kBlk m c t) (x2 := vBlk m c t) (x3 := sBlk m c t) (x4 := mBlk m c t) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (fun h => h0 ((hcond0_0 t).mp h)) (fun h => h1 ((hcond0_1 t).mp h))) (ix2 r v)).trans ?_
    exact hs.2.2 v

/-- A column tile's last point steps likewise. -/
theorem holds_last (t : Fin cfg0.N) (r : Fin 512) (h0 : ¬t.val % 8 = 0) (h1 : t.val % 8 = 7)
    (ih : Holds m c (t.val - 1) (Nat.lt_of_le_of_lt (Nat.sub_le _ _) t.isLt) r) : Holds m c t.val t.isLt r := by
  obtain ⟨p0, p1, p2⟩ := prev_closed m c t r h0 ih
  have hs := step_closed m c t r _ _ _ (t.val % 8) rfl p0 p1 p2
  unfold Holds
  rw [outsAt0_C m c t h0 h1]
  dsimp only
  refine ⟨?_, ?_, fun v => ?_⟩
  · refine (congrFun (sout0_C_0_eq (F := Ideal) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := scM0_0) (harg8 := Memref.isWhole_whole _) (arg9 := scM0_1) (harg9 := Memref.isWhole_whole _) (arg10 := scM0_2) (harg10 := Memref.isWhole_whole _) (x0 := qBlk m c t) (x1 := kBlk m c t) (x2 := vBlk m c t) (x3 := sBlk m c t) (x4 := mBlk m c t) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (fun h => h0 ((hcond0_0 t).mp h)) ((hcond0_1 t).mpr h1)) (ix2 r 0)).trans ?_
    exact hs.1
  · refine (congrFun (sout0_C_1_eq (F := Ideal) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := scM0_0) (harg8 := Memref.isWhole_whole _) (arg9 := scM0_1) (harg9 := Memref.isWhole_whole _) (arg10 := scM0_2) (harg10 := Memref.isWhole_whole _) (x0 := qBlk m c t) (x1 := kBlk m c t) (x2 := vBlk m c t) (x3 := sBlk m c t) (x4 := mBlk m c t) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (fun h => h0 ((hcond0_0 t).mp h)) ((hcond0_1 t).mpr h1)) (ix2 r 0)).trans ?_
    exact hs.2.1
  · refine (congrFun (sout0_C_2_eq (F := Ideal) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := scM0_0) (harg8 := Memref.isWhole_whole _) (arg9 := scM0_1) (harg9 := Memref.isWhole_whole _) (arg10 := scM0_2) (harg10 := Memref.isWhole_whole _) (x0 := qBlk m c t) (x1 := kBlk m c t) (x2 := vBlk m c t) (x3 := sBlk m c t) (x4 := mBlk m c t) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (fun h => h0 ((hcond0_0 t).mp h)) ((hcond0_1 t).mpr h1)) (ix2 r v)).trans ?_
    exact hs.2.2 v

/-- Every point: by induction along the grid's order. -/
theorem holds_all (r : Fin 512) : ∀ (n : ℕ) (hn : n < cfg0.N), Holds m c n hn r
  | 0, hn => holds_first m c ⟨0, hn⟩ r rfl
  | n + 1, hn => by
    have ih := holds_all r n (Nat.lt_of_succ_lt hn)
    by_cases h0 : (n + 1) % 8 = 0
    · exact holds_first m c ⟨n + 1, hn⟩ r h0
    · by_cases h1 : (n + 1) % 8 = 7
      · exact holds_last m c ⟨n + 1, hn⟩ r h0 h1 ih
      · exact holds_middle m c ⟨n + 1, hn⟩ r h0 h1 ih

/-- A row tile's last point stores, on row r and value column v, the streamed result of its query row. -/
theorem out_last (t : Fin cfg0.N) (r : Fin 512) (v : Fin 64) (h1 : t.val % 8 = 7) :
    (outsAt0 m c t.val t.isLt).1 (ix2 r v)
      = streamedOf (a0 m c) (a1 m c) (a2 m c) (a3 m c) (a4 m c) (a5 m c) (a6 m c) (a7 m c) (a8 m c) (qRow t r) v := by
  have h0 : ¬t.val % 8 = 0 := by omega
  have ih := holds_all m c r (t.val - 1) (Nat.lt_of_le_of_lt (Nat.sub_le _ _) t.isLt)
  obtain ⟨p0, p1, p2⟩ := prev_closed m c t r h0 ih
  have hs := step_closed m c t r _ _ _ (t.val % 8) rfl p0 p1 p2
  rw [outsAt0_C m c t h0 h1]
  dsimp only
  refine (congrFun (out0_C_5_eq (F := Ideal) (c := c) (i := grid0.coords t) (arg2 := ms0_0 t) (harg2 := hs0_0 t) (arg3 := ms0_1 t) (harg3 := hs0_1 t) (arg4 := ms0_2 t) (harg4 := hs0_2 t) (arg5 := ms0_3 t) (harg5 := hs0_3 t) (arg6 := ms0_4 t) (harg6 := hs0_4 t) (arg7 := ms0_5 t) (harg7 := hs0_5 t) (arg8 := scM0_0) (harg8 := Memref.isWhole_whole _) (arg9 := scM0_1) (harg9 := Memref.isWhole_whole _) (arg10 := scM0_2) (harg10 := Memref.isWhole_whole _) (x0 := qBlk m c t) (x1 := kBlk m c t) (x2 := vBlk m c t) (x3 := sBlk m c t) (x4 := mBlk m c t) (xs0 := (outsAt0 m c (t.val - 1) (Nat.lt_of_le_of_lt (Nat.sub_le _ _) t.isLt)).2.1) (xs1 := (outsAt0 m c (t.val - 1) (Nat.lt_of_le_of_lt (Nat.sub_le _ _) t.isLt)).2.2.1) (xs2 := (outsAt0 m c (t.val - 1) (Nat.lt_of_le_of_lt (Nat.sub_le _ _) t.isLt)).2.2.2) (fun h => h0 ((hcond0_0 t).mp h)) ((hcond0_1 t).mpr h1)) (ix2 r v)).trans ?_
  rw [outBlock_apply, hs.2.1, hs.2.2 v, h1]
  rfl

end Cert.KernelIdeal.KerValue

end
-- ==== Proof.KerFinal.lean ====
/-
  The output array after the run: every row tile's last point writes back its block of the streamed result, the blocks tile the array, and the re-layout that follows the region reads it.
-/
import proofs.«406999_j21242908246230_3_alg».proof.Proof.KerDefs
import proofs.«406999_j21242908246230_3_alg».proof.Proof.KerInduct
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KerValue

open Idealize.ShloMosaic Idealize.ShloMosaic.TcCoe Idealize.ShloMosaic.Tactic
open Idealize.SL Idealize.SL.Sem
open Idealize.ShloMosaic.ValueIdx
open Cert.KernelIdeal Cert.KernelIdeal.Gen OnlineSoftmax

open Idealize.ShloMosaic.Pipeline (Dat)

variable (m : (ℓ : Loc nD τ sig) → Buf (Elt Ideal) ℓ) (ρ : Dev nD → PrngReg) (c : Dev nD)

/-- The streamed result of the nine arguments as a [4096, 64] array. -/
def outArr : FVec Ideal S4096x64 .f32 :=
  fun i => streamedOf (a0 m c) (a1 m c) (a2 m c) (a3 m c) (a4 m c) (a5 m c) (a6 m c) (a7 m c) (a8 m c) (i 0) (i 1)

/-- The output window is written back exactly at a row tile's last point. -/
theorem flush5_iff : ∀ t : Fin cfg0.N, (cfg0.win 5).flush t = true ↔ t.val % 8 = 7 :=
  (by decide +kernel : ∀ t : Fin grid0.N, _)

/-- Its block index is (the row tile, 0). -/
theorem idx5 : ∀ t : Fin cfg0.N, win0_5.index t (0 : Fin 2) = t.val / 8 ∧ win0_5.index t (1 : Fin 2) = 0 :=
  (by decide +kernel : ∀ t : Fin grid0.N, _)

/-- What a row tile's last point writes back is its block of the streamed result. -/
theorem flushed5_eq (t : Fin cfg0.N) (h7 : t.val % 8 = 7) :
    (dats m 0 c).flushed 5 t = ((cfg0.win 5).blk t).view.read (Elt Ideal) (outArr m c) := by
  show (cfg0.win 5).cut (grid0.coords t) ((dats m 0 c).after 5 t) = _
  rw [after0_5]
  refine funext fun (j : S512x64.Idx) => ?_
  obtain ⟨r, v, rfl⟩ : ∃ (r : Fin 512) (v : Fin 64), j = ix2 r v := ⟨j 0, j 1, eq_ix2 j⟩
  show (outsAt0 m c t.val t.isLt).1 (ix2 r v) = outArr m c (((cfg0.win 5).blk t).view.emb (ix2 r v))
  rw [out_last m c t r v h7]
  obtain ⟨i0, i1⟩ := idx5 t
  have e0 : (((cfg0.win 5).blk t).view.emb (ix2 r v)) 0 = qRow t r := Fin.ext (by
    show win0_5.index t (0 : Fin 2) * 512 + 1 * r.val = t.val / 8 * 512 + r.val
    rw [i0]; omega)
  have e1 : (((cfg0.win 5).blk t).view.emb (ix2 r v)) 1 = v := Fin.ext (by
    show win0_5.index t (1 : Fin 2) * 64 + 1 * v.val = v.val
    rw [i1]; omega)
  show _ = streamedOf (a0 m c) (a1 m c) (a2 m c) (a3 m c) (a4 m c) (a5 m c) (a6 m c) (a7 m c) (a8 m c)
    ((((cfg0.win 5).blk t).view.emb (ix2 r v)) 0) ((((cfg0.win 5).blk t).view.emb (ix2 r v)) 1)
  rw [e0, e1]

/-- An index of the output array is in point t's block iff each coordinate is in the block's range. -/
theorem mem_blk5 (t : Fin cfg0.N) (i : S4096x64.Idx) :
    i ∈ ((cfg0.win 5).blk t).view.set ↔ ∀ a : Fin 2, win0_5.index t a * S512x64.size a ≤ (i a).val ∧ (i a).val < win0_5.index t a * S512x64.size a + S512x64.size a := by
  show i ∈ ((View.whole main_v11).slice (win0_5.rect t)).set ↔ _
  rw [View.set_slice_whole, Rect.mem_set_unit]
  exact Iff.rfl

/-- Every index of the output array lies in the block of its row tile's last point. -/
theorem cover5 (i : S4096x64.Idx) :
    ∃ t : Fin cfg0.N, (cfg0.win 5).flush t = true ∧ i ∈ ((cfg0.win 5).blk t).view.set := by
  have hi0 : (i 0).val < 4096 := (i 0).isLt
  have hi1 : (i 1).val < 64 := (i 1).isLt
  have hN : cfg0.N = 64 := N_0
  refine ⟨⟨(i 0).val / 512 * 8 + 7, by omega⟩, (flush5_iff _).mpr (by show ((i 0).val / 512 * 8 + 7) % 8 = 7; omega), ?_⟩
  rw [mem_blk5]
  obtain ⟨i0, i1⟩ := idx5 ⟨(i 0).val / 512 * 8 + 7, by omega⟩
  intro a
  match a with
  | ⟨0, _⟩ =>
    show win0_5.index _ (0 : Fin 2) * 512 ≤ (i 0).val ∧ (i 0).val < win0_5.index _ (0 : Fin 2) * 512 + 512
    rw [i0]
    show ((i 0).val / 512 * 8 + 7) / 8 * 512 ≤ (i 0).val ∧ (i 0).val < ((i 0).val / 512 * 8 + 7) / 8 * 512 + 512
    omega
  | ⟨1, _⟩ =>
    show win0_5.index _ (1 : Fin 2) * 64 ≤ (i 1).val ∧ (i 1).val < win0_5.index _ (1 : Fin 2) * 64 + 64
    rw [i1]
    omega

/-- The output array after the run is the streamed result. -/
theorem final5 : (dats m 0 c).arrAt 5 cfg0.N = outArr m c :=
  (dats m 0 c).arrAt_eq_of_cover 5 (outArr m c) (fun t hf => flushed5_eq m c t ((flush5_iff t).mp hf)) cover5

/-- The re-layout after the region reads the output array: the result is the streamed result laid out as [4096, 1, 64]. -/
theorem tail12 :
    Pipeline.afterTail₀ cfgs (dats m) 0 (V0 m) [hostOps1] c main_v12
      = broadcastInDim S4096x1x64 ![0, 2] bcast_S4096x64_S4096x1x64_0_2 (outArr m c) := by
  unfold Pipeline.afterTail₀
  show StableHlo.after hostOps1 _ (Proc.devRef .tc main_v12) = _
  after_results
  exact congrArg (broadcastInDim S4096x1x64 ![0, 2] bcast_S4096x64_S4096x1x64_0_2)
    ((Pipeline.withArrays_arr spec0 launch0.win.arr_inj c (V0 m c) (fun w => (dats m 0 c).arrAt w cfg0.N) 5).trans (final5 m c))

/-- THE RUN, READ: every weakly fair execution ends with the result buffer at the streamed result, laid out as
    [4096, 1, 64], and with the nine argument arrays as they were. -/
theorem run : θ_run defs (onTc (τ := τ) (main (F := Ideal))) ⟨m, fun _ => 0, ρ⟩ (fun r => ∀ c : Dev nD,
      r.2.mem ((c.tc : Thread nD τ).loc main_v12)
        = broadcastInDim S4096x1x64 ![0, 2] bcast_S4096x64_S4096x1x64_0_2 (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v12 (Pipeline.mem_restRefs_of main_v12 (by decide) (by decide))).trans (tail12 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.KerValue

end
-- ==== Proof.RefValue.lean ====
/-
  The reference program's result, before its last re-layout, is the direct form of its nine arguments.
-/
import proofs.«406999_j21242908246230_3_alg».proof.Proof.RefRead
import proofs.«406999_j21242908246230_3_alg».proof.Proof.Spec

noncomputable section

namespace Cert.ReferenceIdeal.RefValue

open Idealize.ShloMosaic OnlineSoftmax Cert.ReferenceIdeal Cert.ReferenceIdeal.ReadP

open Idealize.ShloMosaic.ValueIdx

/-! ## The four constants of the program as extended reals -/

/-- The pattern of 1.0 is 1. -/
theorem ofBits_one : Ideal.ofBits .f32 0x3F800000#32 = 1 := by
  simp [Ideal.ofBits, Ideal.ieee, -EReal.coe_mul]; norm_num

/-- The pattern of 64.0 is 64. -/
theorem ofBits_sixtyFour : Ideal.ofBits .f32 0x42800000#32 = ((64 : ℝ) : EReal) := by
  simp [Ideal.ofBits, Ideal.ieee, -EReal.coe_mul]; norm_num

/-- The pattern 0x3E000000 is 2⁻³ = 1/8. -/
theorem ofBits_eighth : Ideal.ofBits .f32 0x3E000000#32 = (((8 : ℝ)⁻¹ : ℝ) : EReal) := by
  simp [Ideal.ofBits, Ideal.ieee, -EReal.coe_mul]; norm_num

/-- The pattern of −∞ is ⊥. -/
theorem ofBits_negInf : Ideal.ofBits .f32 0xFF800000#32 = ⊥ := by simp [Ideal.ofBits, Ideal.ieee]

/-- 1 / √64 is exactly 1/8: √64 = 8 because 64 = 8², and 8 ≠ 0. -/
theorem scale_eq :
    Ideal.div (Ideal.ofBits .f32 0x3F800000#32) (Ideal.sqrt (Ideal.ofBits .f32 0x42800000#32)) = Ideal.ofBits .f32 0x3E000000#32 := by
  rw [ofBits_one, ofBits_sixtyFour, ofBits_eighth]
  have h8 : Real.sqrt 64 = 8 := by
    rw [show (64 : ℝ) = 8 ^ 2 by norm_num]; exact Real.sqrt_sq (by norm_num)
  have hs : Ideal.sqrt ((64 : ℝ) : EReal) = ((8 : ℝ) : EReal) := by
    show (if (64 : ℝ) < 0 then (⊥ : EReal) else ((Real.sqrt 64 : ℝ) : EReal)) = _
    rw [if_neg (by norm_num), h8]
  rw [hs]
  unfold Ideal.div
  rw [if_neg (by simp), one_mul, ← EReal.coe_inv]

/-- A select on a decided comparison is the `if`. -/
theorem select_ofBool_decide {α : Type} (p : Prop) [Decidable p] (a b : α) :
    Scalar.select (BitVec.ofBool (decide p)) a b = if p then a else b := by
  by_cases h : p
  · simp [h, Scalar.select]
  · simp [h, Scalar.select]

variable (x0 : (⟨2, ![16384, 128]⟩ : Shape).Idx → EReal) (x1 : (⟨2, ![16384, 64]⟩ : Shape).Idx → EReal)
  (x2 : (⟨2, ![4096, 128]⟩ : Shape).Idx → EReal) (x3 : (⟨2, ![4096, 16384]⟩ : Shape).Idx → EReal)
  (x4 : (⟨2, ![4096, 16384]⟩ : Shape).Idx → BitVec 32) (x5 : (⟨2, ![128, 64]⟩ : Shape).Idx → EReal)
  (x6 : (⟨1, ![64]⟩ : Shape).Idx → EReal) (x7 : (⟨2, ![128, 64]⟩ : Shape).Idx → EReal)
  (x8 : (⟨1, ![64]⟩ : Shape).Idx → EReal)

/-! ## The two projections -/

/-- Row s, column d of the key projection reads row s of the keys' source and column d of its weights. -/
theorem lidx0 (s : Fin 16384) (d : Fin 64) (k : Fin 128) : lidx_main_v0 (ix2 s d) k = ix2 s k :=
  funext fun a => Fin.ext (by match a with | ⟨0, _⟩ => rfl | ⟨1, _⟩ => rfl)
theorem ridx0 (s : Fin 16384) (d : Fin 64) (k : Fin 128) : ridx_main_v0 (ix2 s d) k = ix2 k d :=
  funext fun a => Fin.ext (by match a with | ⟨0, _⟩ => rfl | ⟨1, _⟩ => rfl)
theorem idx12 (s : Fin 16384) (d : Fin 64) : idx_main_v1 (idx_main_v2 (ix2 s d)) = ix1 d :=
  funext fun a => Fin.ext (by match a with | ⟨0, _⟩ => rfl)

/-- The keys: x0 · x5 + x6. -/
theorem v3_at (s : Fin 16384) (d : Fin 64) :
    val_main_v3 (F := Ideal) x0 x5 x6 (ix2 s d) = proj (mat x0) (mat x5) (vec x6) s d := by
  rw [val_main_v3_apply, val_main_v0_apply, val_main_v2_apply, val_main_v1_apply]
  simp only [Ideal.addf_def, lidx0, ridx0, idx12]
  rfl

theorem lidx4 (q : Fin 4096) (d : Fin 64) (k : Fin 128) : lidx_main_v4 (ix2 q d) k = ix2 q k :=
  funext fun a => Fin.ext (by match a with | ⟨0, _⟩ => rfl | ⟨1, _⟩ => rfl)
theorem ridx4 (q : Fin 4096) (d : Fin 64) (k : Fin 128) : ridx_main_v4 (ix2 q d) k = ix2 k d :=
  funext fun a => Fin.ext (by match a with | ⟨0, _⟩ => rfl | ⟨1, _⟩ => rfl)
theorem idx56 (q : Fin 4096) (d : Fin 64) : idx_main_v5 (idx_main_v6 (ix2 q d)) = ix1 d :=
  funext fun a => Fin.ext (by match a with | ⟨0, _⟩ => rfl)

/-- The queries: x2 · x7 + x8. -/
theorem v7_at (q : Fin 4096) (d : Fin 64) :
    val_main_v7 (F := Ideal) x2 x7 x8 (ix2 q d) = proj (mat x2) (mat x7) (vec x8) q d := by
  rw [val_main_v7_apply, val_main_v4_apply, val_main_v6_apply, val_main_v5_apply]
  simp only [Ideal.addf_def, lidx4, ridx4, idx56]
  rfl

/-! ## The raw logit and the shifted logit -/

theorem lidx10 (q : Fin 4096) (s : Fin 16384) (k : Fin 64) : lidx_main_v10 (ix2 q s) k = ix2 q k :=
  funext fun a => Fin.ext (by match a with | ⟨0, _⟩ => rfl | ⟨1, _⟩ => rfl)
theorem ridx10 (q : Fin 4096) (s : Fin 16384) (k : Fin 64) : ridx_main_v10 (ix2 q s) k = ix2 s k :=
  funext fun a => Fin.ext (by match a with | ⟨0, _⟩ => rfl | ⟨1, _⟩ => rfl)

/-- The broadcast scale is 1 / √64 = 1/8 at every index. -/
theorem v11_at (i : S4096x16384.Idx) : val_main_v11 (F := Ideal) i = Ideal.ofBits .f32 0x3E000000#32 := by
  rw [val_main_v11_apply, val_main_v9_apply, val_main_v8_apply, val_main_cst_apply, val_main_cst_0_apply]
  simp only [Ideal.ofBits_def, Ideal.hostDivf_def, Ideal.hostUnary_sqrt_def]
  exact scale_eq

/-- The raw logit: the inner product of query q and key s, times 1/8. -/
theorem v12_at (q : Fin 4096) (s : Fin 16384) :
    val_main_v12 (F := Ideal) x0 x2 x5 x6 x7 x8 (ix2 q s)
      = rawLogit (proj (mat x2) (mat x7) (vec x8)) (proj (mat x0) (mat x5) (vec x6)) q s := by
  rw [val_main_v12_apply, val_main_v10_apply, v11_at]
  simp only [Ideal.mulf_def, lidx10, ridx10, v3_at, v7_at]
  rfl

/-- The shifted logit: the raw logit plus the logarithm of the soft mask. -/
abbrev zOf (q : Fin 4096) : Fin 16384 → EReal := fun s =>
  rawLogit (proj (mat x2) (mat x7) (vec x8)) (proj (mat x0) (mat x5) (vec x6)) q s + Ideal.log (mat x3 q s)

theorem v14_at (q : Fin 4096) (s : Fin 16384) :
    val_main_v14 (F := Ideal) x0 x2 x3 x5 x6 x7 x8 (ix2 q s) = zOf x0 x2 x3 x5 x6 x7 x8 q s := by
  rw [val_main_v14_apply, val_main_v13_apply, v12_at]
  simp only [Ideal.addf_def, Ideal.hostUnary_log_def]
  rfl

/-! ## The hard mask as a number, and the admitted logits -/

theorem v15_at (q : Fin 4096) (s : Fin 16384) : val_main_v15 (F := Ideal) x4 (ix2 q s) = maskNum x4 q s := rfl

/-- Where the mask's number is positive the shifted logit, elsewhere −∞. -/
theorem v18_at (q : Fin 4096) (s : Fin 16384) :
    val_main_v18 (F := Ideal) x0 x2 x3 x4 x5 x6 x7 x8 (ix2 q s)
      = if 0 < maskNum x4 q s then zOf x0 x2 x3 x5 x6 x7 x8 q s else ⊥ := by
  rw [val_main_v18_apply, val_main_v17_apply, val_main_v16_apply, val_main_cst_1_apply, val_main_call0_v1_apply,
    val_main_call0_v0_apply, val_main_cst_2_apply, v14_at, v15_at]
  simp only [Ideal.ofBits_def, Ideal.ofBits_zero_f32, ofBits_negInf, Ideal.cmpf_def, Ideal.cmp]
  exact select_ofBool_decide _ _ _

/-! ## The row maximum of the admitted logits -/

/-- The row-reduction's shape fact in the form the inserted index is defined from. -/
theorem red_h : S4096x16384.Reduces [1] S4096 := by decide

/-- Query q with column k put back is (q, k). -/
theorem lift_ix2 (q : Fin 4096) (k : Fin 16384) : red_h.lift (ix1 q) k = ix2 q k := by
  funext c; apply Fin.ext
  match c with | ⟨0, _⟩ => rfl | ⟨1, _⟩ => rfl

/-- From −∞ the maximum-reduction along the columns is, at query q, the fold of max over row q. -/
theorem rowMax_reduce (y : FVec Ideal S4096x16384 .f32) (q : Fin 4096) :
    Host.reduce (FloatOps.maximumf (F := Ideal) (φ := .f32)) y (val_main_cst_3 (F := Ideal)) Gen.reducesTo_S4096x16384_S4096_d1 Gen.h_S_ (ix1 q)
      = (Finset.univ : Finset (Fin 16384)).fold max ⊥ (fun s => y (ix2 q s)) := by
  rw [Host.reduce_eq_fold_single (FloatOps.maximumf (F := Ideal) (φ := .f32)) y (val_main_cst_3 (F := Ideal)) Gen.reducesTo_S4096x16384_S4096_d1 red_h Gen.h_S_]
  have hi : val_main_cst_3 (F := Ideal) (Shape.Idx.first Gen.h_S_) = ⊥ := ofBits_negInf
  rw [hi]
  have hf : (y ∘ red_h.lift (ix1 q)) = fun s : Fin 16384 => y (ix2 q s) := funext fun k => congrArg y (lift_ix2 q k)
  exact congrArg (fun f => Finset.fold max (⊥ : EReal) f (Finset.univ : Finset (Fin 16384))) hf

/-- The row maximum of the reference is Spec's row maximum of the shifted logits under the mask's number. -/
theorem v19_at (q : Fin 4096) :
    val_main_v19 (F := Ideal) x0 x2 x3 x4 x5 x6 x7 x8 (ix1 q)
      = rowMax (zOf x0 x2 x3 x5 x6 x7 x8 q) (fun s => maskNum x4 q s) := by
  unfold val_main_v19
  rw [rowMax_reduce]
  unfold rowMax
  exact congrArg (fun f => Finset.fold max (⊥ : EReal) f (Finset.univ : Finset (Fin 16384)))
    (funext fun s => v18_at x0 x2 x3 x4 x5 x6 x7 x8 q s)

/-! ## The weights, their row sum and the quotient -/

theorem idx2021 (q : Fin 4096) (s : Fin 16384) : idx_main_v20 (idx_main_v21 (ix2 q s)) = ix1 q :=
  funext fun a => Fin.ext (by match a with | ⟨0, _⟩ => rfl)

/-- A column's unnormalised weight: exp (shifted logit − row maximum) times the mask's number. -/
theorem v24_at (q : Fin 4096) (s : Fin 16384) :
    val_main_v24 (F := Ideal) x0 x2 x3 x4 x5 x6 x7 x8 (ix2 q s)
      = rowTerm (zOf x0 x2 x3 x5 x6 x7 x8 q) (fun s => maskNum x4 q s) s := by
  rw [val_main_v24_apply, val_main_v23_apply, val_main_v22_apply, val_main_v21_apply, val_main_v20_apply, idx2021,
    v19_at, v14_at, v15_at]
  simp only [Ideal.mulf_def, Ideal.subf_def, Ideal.hostUnary_exp_def]
  rfl

theorem idx25 (q : Fin 4096) (k : Fin 16384) : idx_main_v25 (ix1 q) k = ix2 q k :=
  funext fun a => Fin.ext (by match a with | ⟨0, _⟩ => rfl | ⟨1, _⟩ => rfl)

/-- The row sum of the weights, from the initial value 0. -/
theorem v25_at (q : Fin 4096) :
    val_main_v25 (F := Ideal) x0 x2 x3 x4 x5 x6 x7 x8 (ix1 q)
      = 0 + ∑ s' : Fin 16384, rowTerm (zOf x0 x2 x3 x5 x6 x7 x8 q) (fun s => maskNum x4 q s) s' := by
  rw [val_main_v25_apply, val_main_cst_4_apply]
  simp only [Ideal.ofBits_def, Ideal.ofBits_zero_f32, idx25, v24_at]

theorem idx2627 (q : Fin 4096) (s : Fin 16384) : idx_main_v26 (idx_main_v27 (ix2 q s)) = ix1 q :=
  funext fun a => Fin.ext (by match a with | ⟨0, _⟩ => rfl)

/-- The normalised weight. -/
theorem v28_at (q : Fin 4096) (s : Fin 16384) :
    val_main_v28 (F := Ideal) x0 x2 x3 x4 x5 x6 x7 x8 (ix2 q s)
      = Ideal.div (rowTerm (zOf x0 x2 x3 x5 x6 x7 x8 q) (fun s => maskNum x4 q s) s)
          (0 + ∑ s' : Fin 16384, rowTerm (zOf x0 x2 x3 x5 x6 x7 x8 q) (fun s => maskNum x4 q s) s') := by
  rw [val_main_v28_apply, val_main_v27_apply, val_main_v26_apply, idx2627, v25_at, v24_at]
  rfl

/-! ## The product with the values -/

theorem lidx29 (q : Fin 4096) (v : Fin 64) (k : Fin 16384) : lidx_main_v29 (ix2 q v) k = ix2 q k :=
  funext fun a => Fin.ext (by match a with | ⟨0, _⟩ => rfl | ⟨1, _⟩ => rfl)
theorem ridx29 (q : Fin 4096) (v : Fin 64) (k : Fin 16384) : ridx_main_v29 (ix2 q v) k = ix2 k v :=
  funext fun a => Fin.ext (by match a with | ⟨0, _⟩ => rfl | ⟨1, _⟩ => rfl)

theorem v29_at (q : Fin 4096) (v : Fin 64) :
    val_main_v29 (F := Ideal) x0 x1 x2 x3 x4 x5 x6 x7 x8 (ix2 q v) = directOf x0 x1 x2 x3 x4 x5 x6 x7 x8 q v := by
  rw [val_main_v29_apply]
  simp only [lidx29, ridx29, v28_at]
  rfl

/-- Stage by stage: two projections, the scaled inner product (1 / √64 is the exact 1/8), the added log of the
    soft mask, the admitted row maximum, the exponentials times the mask, their row sum, the quotient, and the
    product with the values. -/
theorem val_main_v29_eq_direct [Cert.ReferenceIdeal.Facts]
    (x0 : (⟨2, ![16384, 128]⟩ : Shape).Idx → EReal) (x1 : (⟨2, ![16384, 64]⟩ : Shape).Idx → EReal)
    (x2 : (⟨2, ![4096, 128]⟩ : Shape).Idx → EReal) (x3 : (⟨2, ![4096, 16384]⟩ : Shape).Idx → EReal)
    (x4 : (⟨2, ![4096, 16384]⟩ : Shape).Idx → BitVec 32) (x5 : (⟨2, ![128, 64]⟩ : Shape).Idx → EReal)
    (x6 : (⟨1, ![64]⟩ : Shape).Idx → EReal) (x7 : (⟨2, ![128, 64]⟩ : Shape).Idx → EReal)
    (x8 : (⟨1, ![64]⟩ : Shape).Idx → EReal) :
    ReadP.val_main_v29 (F := Ideal) x0 x1 x2 x3 x4 x5 x6 x7 x8 = fun i => directOf x0 x1 x2 x3 x4 x5 x6 x7 x8 (i 0) (i 1) := by
  funext i
  obtain ⟨q, v, rfl⟩ : ∃ (q : Fin 4096) (v : Fin 64), i = ix2 q v := ⟨i 0, i 1, eq_ix2 i⟩
  exact v29_at x0 x1 x2 x3 x4 x5 x6 x7 x8 q v

end Cert.ReferenceIdeal.RefValue

end
-- ==== Proof.Algebra.lean ====
/-
  The streamed form and the direct form of masked attention agree on admissible data.
-/
import proofs.«406999_j21242908246230_3_alg».proof.Proof.Spec

noncomputable section

namespace OnlineSoftmax

open Idealize.ShloMosaic

/-! ## Finite sums of real coercions, and folds of max over the extended reals -/

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A fold of max from −∞ over entries none of which is +∞ is not +∞. -/
theorem fold_ne_top {ι : Type} (s : Finset ι) (f : ι → EReal) (h : ∀ i ∈ s, f i ≠ ⊤) :
    s.fold max ⊥ f ≠ ⊤ := by
  rw [← lt_top_iff_ne_top, Finset.fold_max_lt]
  exact ⟨bot_lt_top, fun i hi => lt_top_iff_ne_top.2 (h i hi)⟩

/-- A fold of max from −∞ is −∞ exactly when every entry is. -/
theorem fold_eq_bot {ι : Type} (s : Finset ι) (f : ι → EReal) :
    s.fold max ⊥ f = ⊥ ↔ ∀ i ∈ s, f i = ⊥ := by
  rw [← le_bot_iff, Finset.fold_max_le]
  simp

/-- An extended real that is neither infinity is a real number. -/
theorem exists_real {x : EReal} (h1 : x ≠ ⊤) (h2 : x ≠ ⊥) : ∃ r : ℝ, x = (r : EReal) := by
  induction x using EReal.rec with
  | bot => exact absurd rfl h2
  | coe r => exact ⟨r, rfl⟩
  | top => exact absurd rfl h1

/-- The scale constant is a real number. -/
theorem scale_real : ∃ c : ℝ, Ideal.ofBits .f32 0x3E000000#32 = (c : EReal) := by
  simp [Ideal.ofBits, Ideal.ieee, -EReal.coe_mul]

/-! ## One tile of the streamed form on real data -/

section Tile

variable {K : ℕ}

/-- The tile's admitted terms exp (logit) · soft mask, summed, with no shift. -/
def tileD (ar : Fin K → ℝ) (b : Fin K → Bool) (wr : Fin K → ℝ) : ℝ :=
  ∑ j, if b j = true then Real.exp (ar j) * wr j else 0

/-- The tile's admitted terms exp (logit) · soft mask · value, summed, with no shift. -/
def tileN (ar : Fin K → ℝ) (b : Fin K → Bool) (wr yr : Fin K → ℝ) : ℝ :=
  ∑ j, if b j = true then Real.exp (ar j) * wr j * yr j else 0

theorem tileMax_ne_top (ar : Fin K → ℝ) (b : Fin K → Bool) :
    tileMax (fun j => (ar j : EReal)) b ≠ ⊤ := by
  unfold tileMax
  refine fold_ne_top _ _ (fun j _ => ?_)
  split_ifs
  · exact EReal.coe_ne_top _
  · exact bot_ne_top

theorem tileMax_eq_bot (ar : Fin K → ℝ) (b : Fin K → Bool) :
    tileMax (fun j => (ar j : EReal)) b = ⊥ ↔ ∀ j, b j = false := by
  unfold tileMax
  rw [fold_eq_bot]
  constructor
  · intro h j
    have hj := h j (Finset.mem_univ j)
    cases hb : b j with
    | false => rfl
    | true => rw [if_pos hb] at hj; exact absurd hj (EReal.coe_ne_bot _)
  · intro h j _
    simp [h j]

theorem newMax_ne_top {m : EReal} (hm : m ≠ ⊤) (ar : Fin K → ℝ) (b : Fin K → Bool) :
    newMax m (fun j => (ar j : EReal)) b ≠ ⊤ := by
  unfold newMax
  rcases max_choice m (tileMax (fun j => (ar j : EReal)) b) with h | h <;> rw [h]
  · exact hm
  · exact tileMax_ne_top ar b

theorem newMax_eq_bot (m : EReal) (ar : Fin K → ℝ) (b : Fin K → Bool) :
    newMax m (fun j => (ar j : EReal)) b = ⊥ ↔ m = ⊥ ∧ ∀ j, b j = false := by
  unfold newMax
  rw [max_eq_bot, tileMax_eq_bot]

/-- A column's weight against a real new maximum M', as exp (−M') times its unshifted term. -/
theorem weight_coe {m : EReal} {ar : Fin K → ℝ} {b : Fin K → Bool} {M' : ℝ}
    (h : newMax m (fun j => (ar j : EReal)) b = (M' : EReal)) (wr : Fin K → ℝ) (j : Fin K) :
    weight m (fun j => (ar j : EReal)) b (fun j => (wr j : EReal)) j
      = ((Real.exp (-M') * (if b j = true then Real.exp (ar j) * wr j else 0) : ℝ) : EReal) := by
  unfold weight
  rw [h]
  split_ifs with hb
  · rw [← EReal.coe_sub, Ideal.exp_coe, ← EReal.coe_mul]
    congr 1
    rw [sub_eq_add_neg, Real.exp_add]
    ring
  · simp

theorem sum_weight {m : EReal} {ar : Fin K → ℝ} {b : Fin K → Bool} {M' : ℝ}
    (h : newMax m (fun j => (ar j : EReal)) b = (M' : EReal)) (wr : Fin K → ℝ) :
    ∑ j, weight m (fun j => (ar j : EReal)) b (fun j => (wr j : EReal)) j
      = ((Real.exp (-M') * tileD ar b wr : ℝ) : EReal) := by
  rw [Finset.sum_congr rfl (fun j _ => weight_coe h wr j), ← coe_sum, ← Finset.mul_sum]
  rfl

theorem sum_weight_mul {m : EReal} {ar : Fin K → ℝ} {b : Fin K → Bool} {M' : ℝ}
    (h : newMax m (fun j => (ar j : EReal)) b = (M' : EReal)) (wr yr : Fin K → ℝ) :
    ∑ j, weight m (fun j => (ar j : EReal)) b (fun j => (wr j : EReal)) j * (yr j : EReal)
      = ((Real.exp (-M') * tileN ar b wr yr : ℝ) : EReal) := by
  have e : ∀ j ∈ (Finset.univ : Finset (Fin K)),
      weight m (fun j => (ar j : EReal)) b (fun j => (wr j : EReal)) j * (yr j : EReal)
        = ((Real.exp (-M') * (if b j = true then Real.exp (ar j) * wr j * yr j else 0) : ℝ) : EReal) := by
    intro j _
    rw [weight_coe h wr j, ← EReal.coe_mul]
    congr 1
    split_ifs <;> ring
  rw [Finset.sum_congr rfl e, ← coe_sum, ← Finset.mul_sum]
  rfl

theorem rescale_bot (ar : Fin K → ℝ) (b : Fin K → Bool) :
    rescale ⊥ (fun j => (ar j : EReal)) b = 0 := by
  unfold rescale
  rw [EReal.bot_sub, Ideal.exp_bot]

theorem rescale_coe {M M' : ℝ} {ar : Fin K → ℝ} {b : Fin K → Bool}
    (h : newMax (M : EReal) (fun j => (ar j : EReal)) b = (M' : EReal)) :
    rescale (M : EReal) (fun j => (ar j : EReal)) b = ((Real.exp (M - M') : ℝ) : EReal) := by
  unfold rescale
  rw [h, ← EReal.coe_sub, Ideal.exp_coe]

/-- The running state (m, l, n) stands for the unshifted sums (D, N): the maximum is never +∞; while it is −∞
    nothing has been admitted and everything is 0; once it is a real M the sums are exp (−M) · D and
    exp (−M) · N. -/
def Stands (m l n : EReal) (D N : ℝ) : Prop :=
  m ≠ ⊤ ∧ (m = ⊥ → D = 0 ∧ N = 0 ∧ l = 0 ∧ n = 0) ∧
    ∀ M : ℝ, m = (M : EReal) → l = ((Real.exp (-M) * D : ℝ) : EReal) ∧ n = ((Real.exp (-M) * N : ℝ) : EReal)

/-- One tile keeps the running state standing for the unshifted sums, grown by the tile's terms. -/
theorem Stands.step {m l n : EReal} {D N : ℝ} (h : Stands m l n D N)
    (ar : Fin K → ℝ) (b : Fin K → Bool) (wr yr : Fin K → ℝ) :
    Stands (newMax m (fun j => (ar j : EReal)) b)
      (newDen m l (fun j => (ar j : EReal)) b (fun j => (wr j : EReal)))
      (newNum m n (fun j => (ar j : EReal)) b (fun j => (wr j : EReal)) (fun j => (yr j : EReal)))
      (D + tileD ar b wr) (N + tileN ar b wr yr) := by
  obtain ⟨hm, hbot, hreal⟩ := h
  refine ⟨newMax_ne_top hm ar b, ?_, ?_⟩
  · intro h'
    rw [newMax_eq_bot] at h'
    obtain ⟨hmb, hb⟩ := h'
    obtain ⟨hD, hN, hl, hn⟩ := hbot hmb
    refine ⟨?_, ?_, ?_, ?_⟩
    · simp [tileD, hb, hD]
    · simp [tileN, hb, hN]
    · simp [newDen, weight, hb, hl]
    · simp [newNum, weight, hb, hn]
  · intro M' h'
    have key : rescale m (fun j => (ar j : EReal)) b * l = ((Real.exp (-M') * D : ℝ) : EReal) ∧
        rescale m (fun j => (ar j : EReal)) b * n = ((Real.exp (-M') * N : ℝ) : EReal) := by
      by_cases hmb : m = ⊥
      · obtain ⟨hD, hN, hl, hn⟩ := hbot hmb
        simp [hD, hN, hl, hn]
      · obtain ⟨M, rfl⟩ := exists_real hm hmb
        obtain ⟨hl, hn⟩ := hreal M rfl
        rw [rescale_coe h', hl, hn, ← EReal.coe_mul, ← EReal.coe_mul]
        have e : Real.exp (M - M') * Real.exp (-M) = Real.exp (-M') := by
          rw [← Real.exp_add]; congr 1; ring
        constructor
        · congr 1; rw [← mul_assoc, e]
        · congr 1; rw [← mul_assoc, e]
    constructor
    · unfold newDen
      rw [key.1, sum_weight h', ← EReal.coe_add]
      congr 1; ring
    · unfold newNum
      rw [key.2, sum_weight_mul h', ← EReal.coe_add]
      congr 1; ring

end Tile

/-! ## The streamed form after n tiles on real data -/

section Family

variable {K : ℕ}

/-- The unshifted denominator over the first n tiles. -/
def sumD (ar : ℕ → Fin K → ℝ) (b : ℕ → Fin K → Bool) (wr : ℕ → Fin K → ℝ) (n : ℕ) : ℝ :=
  ∑ t ∈ Finset.range n, tileD (ar t) (b t) (wr t)

/-- The unshifted numerator over the first n tiles. -/
def sumN (ar : ℕ → Fin K → ℝ) (b : ℕ → Fin K → Bool) (wr yr : ℕ → Fin K → ℝ) (n : ℕ) : ℝ :=
  ∑ t ∈ Finset.range n, tileN (ar t) (b t) (wr t) (yr t)

/-- After n tiles the running maximum, denominator and numerator stand for the unshifted sums. -/
theorem stands_after (ar : ℕ → Fin K → ℝ) (b : ℕ → Fin K → Bool) (wr yr : ℕ → Fin K → ℝ) (n : ℕ) :
    Stands (maxAfter (fun t j => (ar t j : EReal)) b n)
      (denAfter (fun t j => (ar t j : EReal)) b (fun t j => (wr t j : EReal)) n)
      (numAfter (fun t j => (ar t j : EReal)) b (fun t j => (wr t j : EReal)) (fun t j => (yr t j : EReal)) n)
      (sumD ar b wr n) (sumN ar b wr yr n) := by
  induction n with
  | zero =>
    refine ⟨bot_ne_top, fun _ => ⟨?_, ?_, rfl, rfl⟩, fun M h => absurd h.symm (EReal.coe_ne_bot M)⟩
    · simp [sumD]
    · simp [sumN]
  | succ n ih =>
    have := ih.step (ar n) (b n) (wr n) (yr n)
    unfold sumD sumN
    rw [Finset.sum_range_succ, Finset.sum_range_succ]
    exact this

/-- With a positive unshifted denominator, the streamed quotient is the quotient of the unshifted sums. -/
theorem streamed_eq (ar : ℕ → Fin K → ℝ) (b : ℕ → Fin K → Bool) (wr yr : ℕ → Fin K → ℝ) (n : ℕ)
    (hpos : 0 < sumD ar b wr n) :
    streamed (fun t j => (ar t j : EReal)) b (fun t j => (wr t j : EReal)) (fun t j => (yr t j : EReal)) n
      = ((sumN ar b wr yr n / sumD ar b wr n : ℝ) : EReal) := by
  obtain ⟨hm, hbot, hreal⟩ := stands_after ar b wr yr n
  have hmb : maxAfter (fun t j => (ar t j : EReal)) b n ≠ ⊥ := by
    intro h
    have := (hbot h).1
    rw [this] at hpos
    exact lt_irrefl _ hpos
  obtain ⟨M, hM⟩ := exists_real hm hmb
  obtain ⟨hl, hn⟩ := hreal M hM
  have hne : Real.exp (-M) * sumD ar b wr n ≠ 0 := ne_of_gt (mul_pos (Real.exp_pos _) hpos)
  unfold streamed
  rw [hl, hn, Ideal.div_coe hne, ← EReal.coe_mul]
  congr 1
  have : Real.exp (-M) ≠ 0 := ne_of_gt (Real.exp_pos _)
  have : sumD ar b wr n ≠ 0 := ne_of_gt hpos
  field_simp

end Family

/-! ## The direct form on real data -/

section Direct

variable {N : ℕ}

/-- The unshifted denominator over all columns. -/
def flatD (A : Fin N → ℝ) (on : Fin N → Bool) (W : Fin N → ℝ) : ℝ :=
  ∑ s, if on s = true then Real.exp (A s) * W s else 0

/-- The unshifted numerator over all columns. -/
def flatN (A : Fin N → ℝ) (on : Fin N → Bool) (W Yv : Fin N → ℝ) : ℝ :=
  ∑ s, if on s = true then Real.exp (A s) * W s * Yv s else 0

theorem flatD_pos (A : Fin N → ℝ) (on : Fin N → Bool) (W : Fin N → ℝ) (hW : ∀ s, 0 < W s)
    (hrow : ∃ s, on s = true) : 0 < flatD A on W := by
  obtain ⟨s0, hs0⟩ := hrow
  unfold flatD
  refine Finset.sum_pos' (fun s _ => ?_) ⟨s0, Finset.mem_univ _, ?_⟩
  · split_ifs
    · exact le_of_lt (mul_pos (Real.exp_pos _) (hW s))
    · exact le_refl 0
  · rw [if_pos hs0]
    exact mul_pos (Real.exp_pos _) (hW s0)

/-- The direct form is the quotient of the unshifted sums: the row maximum is real, each term is exp (−max) times
    its unshifted term (exp (log w) = w for w > 0), and the common factor cancels. -/
theorem direct_eq (A : Fin N → ℝ) (on : Fin N → Bool) (W Yv : Fin N → ℝ) (hW : ∀ s, 0 < W s)
    (hrow : ∃ s, on s = true) :
    direct (fun s => (A s : EReal) + Ideal.log (W s : EReal)) (fun s => if on s = true then (1 : EReal) else 0)
        (fun s => (Yv s : EReal))
      = ((flatN A on W Yv / flatD A on W : ℝ) : EReal) := by
  generalize hz : (fun s => (A s : EReal) + Ideal.log (W s : EReal)) = z
  generalize hmk : (fun s => if on s = true then (1 : EReal) else 0) = mk
  have hzr : ∀ s, z s = ((A s + Real.log (W s) : ℝ) : EReal) := by
    intro s
    rw [← hz]
    show (A s : EReal) + Ideal.log (W s : EReal) = _
    rw [Ideal.log_coe, if_neg (not_le.2 (hW s)), ← EReal.coe_add]
  have hmks : ∀ s, mk s = if on s = true then (1 : EReal) else 0 := by
    intro s; rw [← hmk]
  have hpos : ∀ s, on s = true → 0 < mk s := by
    intro s h
    rw [hmks, if_pos h]
    exact zero_lt_one
  have h1 : rowMax z mk ≠ ⊤ := by
    unfold rowMax
    refine fold_ne_top _ _ (fun s _ => ?_)
    split_ifs
    · rw [hzr]; exact EReal.coe_ne_top _
    · exact bot_ne_top
  have h2 : rowMax z mk ≠ ⊥ := by
    unfold rowMax
    rw [Ne, fold_eq_bot]
    intro h
    obtain ⟨s0, hs0⟩ := hrow
    have := h s0 (Finset.mem_univ _)
    rw [if_pos (hpos s0 hs0), hzr] at this
    exact EReal.coe_ne_bot _ this
  obtain ⟨mx, hmx⟩ := exists_real h1 h2
  have hterm : ∀ s, rowTerm z mk s
      = ((Real.exp (-mx) * (if on s = true then Real.exp (A s) * W s else 0) : ℝ) : EReal) := by
    intro s
    unfold rowTerm
    rw [hmx, hzr, ← EReal.coe_sub, Ideal.exp_coe, hmks]
    split_ifs with hb
    · rw [mul_one]
      congr 1
      rw [show A s + Real.log (W s) - mx = -mx + A s + Real.log (W s) by ring, Real.exp_add, Real.exp_add,
        Real.exp_log (hW s)]
      ring
    · simp
  have hsum : (0 : EReal) + ∑ s', rowTerm z mk s' = ((Real.exp (-mx) * flatD A on W : ℝ) : EReal) := by
    rw [zero_add, Finset.sum_congr rfl (fun s _ => hterm s), ← coe_sum, ← Finset.mul_sum]
    rfl
  have hDpos := flatD_pos A on W hW hrow
  have hne : Real.exp (-mx) * flatD A on W ≠ 0 := ne_of_gt (mul_pos (Real.exp_pos _) hDpos)
  unfold direct
  rw [hsum]
  have e : ∀ s ∈ (Finset.univ : Finset (Fin N)),
      Ideal.div (rowTerm z mk s) ((Real.exp (-mx) * flatD A on W : ℝ) : EReal) * (Yv s : EReal)
        = (((if on s = true then Real.exp (A s) * W s * Yv s else 0) / flatD A on W : ℝ) : EReal) := by
    intro s _
    rw [Ideal.div_coe hne, hterm, ← EReal.coe_mul, ← EReal.coe_mul]
    congr 1
    have : Real.exp (-mx) ≠ 0 := ne_of_gt (Real.exp_pos _)
    have : flatD A on W ≠ 0 := ne_of_gt hDpos
    split_ifs
    · field_simp
    · simp
  rw [Finset.sum_congr rfl e, ← coe_sum, ← Finset.sum_div]
  rfl

end Direct

/-! ## Eight tiles of 2048 columns enumerate the 16384 columns -/

/-- (tile, column within the tile) ↦ column of the row is a bijection; its inverse is s ↦ (s / 2048, s % 2048). -/
def tileEquiv : Fin 8 × Fin 2048 ≃ Fin 16384 where
  toFun p := col p.1 p.2
  invFun s := (⟨s / 2048, by have := s.isLt; omega⟩, ⟨s % 2048, Nat.mod_lt _ (by norm_num)⟩)
  left_inv := by
    rintro ⟨⟨t, ht⟩, ⟨j, hj⟩⟩
    simp only [col, Prod.mk.injEq, Fin.mk.injEq]
    constructor <;> omega
  right_inv := by
    rintro ⟨s, hs⟩
    simp only [col, Fin.mk.injEq]
    omega

/-- Summing tile by tile is summing over the row. -/
theorem sum_tiles (g : Fin 16384 → ℝ) :
    ∑ t ∈ Finset.range 8, ∑ j : Fin 2048, g (col t j) = ∑ s, g s := by
  rw [← Fin.sum_univ_eq_sum_range (fun t => ∑ j : Fin 2048, g (col t j)) 8]
  rw [← Equiv.sum_comp tileEquiv g, Fintype.sum_prod_type]
  rfl

/-- On real logits, positive soft masks, a 0/1 hard mask and a row that admits at least one column, the running
    maximum / denominator / numerator of the streamed form end at a common positive multiple of the direct form's
    sums, so the two quotients agree. -/
theorem streamedAt_eq_directAt
    (Q : Fin 4096 → Fin 64 → EReal) (Kk : Fin 16384 → Fin 64 → EReal) (soft mk : Fin 4096 → Fin 16384 → EReal)
    (on : Fin 4096 → Fin 16384 → Bool) (Y : Fin 16384 → Fin 64 → EReal)
    (hQ : ∀ q d, ∃ r : ℝ, Q q d = (r : EReal)) (hK : ∀ s d, ∃ r : ℝ, Kk s d = (r : EReal))
    (hY : ∀ s v, ∃ r : ℝ, Y s v = (r : EReal))
    (hsoft : ∀ q s, ∃ r : ℝ, 0 < r ∧ soft q s = (r : EReal))
    (hmk : ∀ q s, mk q s = if on q s = true then 1 else 0)
    (hrow : ∀ q, ∃ s, on q s = true)
    (q : Fin 4096) (v : Fin 64) :
    streamedAt Q Kk soft on Y q v = directAt Q Kk soft mk Y q v := by
  -- every raw logit of the row is a real number
  have hA : ∀ s, ∃ r : ℝ, rawLogit Q Kk q s = (r : EReal) := by
    intro s
    choose Qr hQr using hQ
    choose Kr hKr using hK
    obtain ⟨c, hc⟩ := scale_real
    refine ⟨(∑ d, Qr q d * Kr s d) * c, ?_⟩
    unfold rawLogit
    rw [hc, EReal.coe_mul, coe_sum]
    simp only [hQr, hKr, EReal.coe_mul]
  choose A hA using hA
  choose W hWpos hW using hsoft q
  choose Yr hYr using hY
  -- both sides equal the quotient of the unshifted sums over the admitted columns
  have hstream : streamedAt Q Kk soft on Y q v
      = ((flatN A (on q) W (fun s => Yr s v) / flatD A (on q) W : ℝ) : EReal) := by
    unfold streamedAt
    have e1 : (fun (t : ℕ) (j : Fin 2048) => rawLogit Q Kk q (col t j))
        = fun t j => ((A (col t j) : ℝ) : EReal) := by
      funext t j; exact hA _
    have e2 : (fun (t : ℕ) (j : Fin 2048) => soft q (col t j)) = fun t j => ((W (col t j) : ℝ) : EReal) := by
      funext t j; exact hW _
    have e3 : (fun (t : ℕ) (j : Fin 2048) => Y (col t j) v) = fun t j => ((Yr (col t j) v : ℝ) : EReal) := by
      funext t j; exact hYr _ _
    rw [e1, e2, e3]
    have hD : sumD (fun t j => A (col t j)) (fun t j => on q (col t j)) (fun t j => W (col t j)) 8
        = flatD A (on q) W := by
      unfold sumD tileD flatD
      exact sum_tiles (fun s => if on q s = true then Real.exp (A s) * W s else 0)
    have hN : sumN (fun t j => A (col t j)) (fun t j => on q (col t j)) (fun t j => W (col t j))
        (fun t j => Yr (col t j) v) 8 = flatN A (on q) W (fun s => Yr s v) := by
      unfold sumN tileN flatN
      exact sum_tiles (fun s => if on q s = true then Real.exp (A s) * W s * Yr s v else 0)
    rw [streamed_eq _ _ _ _ 8 (by rw [hD]; exact flatD_pos A (on q) W hWpos (hrow q)), hD, hN]
  have hdirect : directAt Q Kk soft mk Y q v
      = ((flatN A (on q) W (fun s => Yr s v) / flatD A (on q) W : ℝ) : EReal) := by
    unfold directAt
    have e1 : (fun s => rawLogit Q Kk q s + Ideal.log (soft q s))
        = fun s => ((A s : ℝ) : EReal) + Ideal.log ((W s : ℝ) : EReal) := by
      funext s; rw [hA, hW]
    have e2 : (fun s => mk q s) = fun s => if on q s = true then (1 : EReal) else 0 := by
      funext s; exact hmk q s
    have e3 : (fun s => Y s v) = fun s => ((Yr s v : ℝ) : EReal) := by
      funext s; exact hYr s v
    rw [e1, e2, e3]
    exact direct_eq A (on q) W (fun s => Yr s v) hWpos (hrow q)
  rw [hstream, hdirect]

end OnlineSoftmax

end
-- ==== Proof.Glue.lean ====
/-
  On admissible arguments the streamed and the direct form of the nine arrays agree: the projections of real
  arrays are real, the hard mask's 0/1 entries read as the numbers 0 and 1 and are admitted exactly when 1.
-/
import proofs.«406999_j21242908246230_3_alg».proof.Proof.Algebra

noncomputable section

namespace OnlineSoftmax

open Idealize.ShloMosaic Idealize.ShloMosaic.ValueIdx

/-- A projection of real arrays is real. -/
theorem proj_real {n : ℕ} (x : Fin n → Fin 128 → EReal) (W : Fin 128 → Fin 64 → EReal) (bias : Fin 64 → EReal)
    (hx : ∀ r i, ∃ a : ℝ, x r i = (a : EReal)) (hW : ∀ i d, ∃ a : ℝ, W i d = (a : EReal))
    (hb : ∀ d, ∃ a : ℝ, bias d = (a : EReal)) (r : Fin n) (d : Fin 64) :
    ∃ a : ℝ, proj x W bias r d = (a : EReal) := by
  choose fx hfx using hx
  choose fW hfW using hW
  choose fb hfb using hb
  refine ⟨(∑ i : Fin 128, fx r i * fW i d) + fb d, ?_⟩
  unfold proj
  rw [EReal.coe_add, coe_sum, hfb]
  refine congrArg (· + _) (Finset.sum_congr rfl fun i _ => ?_)
  rw [hfx, hfW, EReal.coe_mul]

/-- The integers 0 and 1 read as the numbers 0 and 1. -/
theorem sitofp_zero : FloatOps.sitofp (F := Ideal) .f32 (0#32 : BitVec 32) = (0 : EReal) := by
  show (((0#32 : BitVec 32).toInt : ℝ) : EReal) = 0
  simp

theorem sitofp_one : FloatOps.sitofp (F := Ideal) .f32 (1#32 : BitVec 32) = (1 : EReal) := by
  show (((1#32 : BitVec 32).toInt : ℝ) : EReal) = 1
  simp

theorem streamedOf_eq_directOf
    (x0 : (⟨2, ![16384, 128]⟩ : Shape).Idx → EReal) (x1 : (⟨2, ![16384, 64]⟩ : Shape).Idx → EReal)
    (x2 : (⟨2, ![4096, 128]⟩ : Shape).Idx → EReal) (x3 : (⟨2, ![4096, 16384]⟩ : Shape).Idx → EReal)
    (x4 : (⟨2, ![4096, 16384]⟩ : Shape).Idx → BitVec 32) (x5 : (⟨2, ![128, 64]⟩ : Shape).Idx → EReal)
    (x6 : (⟨1, ![64]⟩ : Shape).Idx → EReal) (x7 : (⟨2, ![128, 64]⟩ : Shape).Idx → EReal)
    (x8 : (⟨1, ![64]⟩ : Shape).Idx → EReal)
    (h : Admissible x0 x1 x2 x3 x4 x5 x6 x7 x8) (q : Fin 4096) (v : Fin 64) :
    streamedOf x0 x1 x2 x3 x4 x5 x6 x7 x8 q v = directOf x0 x1 x2 x3 x4 x5 x6 x7 x8 q v := by
  unfold streamedOf directOf
  refine streamedAt_eq_directAt _ _ _ _ _ _
    (proj_real _ _ _ (fun r i => h.fin2 _) (fun i d => h.fin7 _) (fun d => h.fin8 _))
    (proj_real _ _ _ (fun r i => h.fin0 _) (fun i d => h.fin5 _) (fun d => h.fin6 _))
    (fun s v => h.fin1 _) (fun q s => h.pos3 _) (fun q s => ?_) (fun q => ?_) q v
  · unfold maskNum admits
    rcases h.bin4 (ix2 q s) with e | e
    · rw [e, sitofp_zero, show decide (IntOp.cmpi CmpIPredicate.sgt (0#32 : BitVec 32) 0#32 = 1#1) = false from by decide]
      simp
    · rw [e, sitofp_one, show decide (IntOp.cmpi CmpIPredicate.sgt (1#32 : BitVec 32) 0#32 = 1#1) = true from by decide]
      simp
  · obtain ⟨s, hs⟩ := h.row4 q
    refine ⟨s, ?_⟩
    unfold admits
    rw [hs]; decide

end OnlineSoftmax

end
-- ==== Proof.RefFinal.lean ====
/-
  The reference program's result on admissible arguments: the streamed form of the nine arrays, laid out as
  [4096, 1, 64] — its direct form agrees with the streamed one there.
-/
import proofs.«406999_j21242908246230_3_alg».proof.Proof.RefValue
import proofs.«406999_j21242908246230_3_alg».proof.Proof.Glue

noncomputable section

namespace Cert.ReferenceIdeal.RefValue

open Idealize.ShloMosaic Idealize.SL.Sem OnlineSoftmax Cert.ReferenceIdeal

theorem res_eq_streamed [Cert.ReferenceIdeal.Facts] (m' : (ℓ : Loc nD τ sig) → Buf (Elt Ideal) ℓ) (c : Dev nD)
    (x0 : (⟨2, ![16384, 128]⟩ : Shape).Idx → EReal) (x1 : (⟨2, ![16384, 64]⟩ : Shape).Idx → EReal)
    (x2 : (⟨2, ![4096, 128]⟩ : Shape).Idx → EReal) (x3 : (⟨2, ![4096, 16384]⟩ : Shape).Idx → EReal)
    (x4 : (⟨2, ![4096, 16384]⟩ : Shape).Idx → BitVec 32) (x5 : (⟨2, ![128, 64]⟩ : Shape).Idx → EReal)
    (x6 : (⟨1, ![64]⟩ : Shape).Idx → EReal) (x7 : (⟨2, ![128, 64]⟩ : Shape).Idx → EReal)
    (x8 : (⟨1, ![64]⟩ : Shape).Idx → EReal)
    (e0 : m' ((c.tc : Thread nD τ).loc main_arg0) = x0) (e1 : m' ((c.tc : Thread nD τ).loc main_arg1) = x1) (e2 : m' ((c.tc : Thread nD τ).loc main_arg2) = x2) (e3 : m' ((c.tc : Thread nD τ).loc main_arg3) = x3)
    (e4 : m' ((c.tc : Thread nD τ).loc main_arg4) = x4) (e5 : m' ((c.tc : Thread nD τ).loc main_arg5) = x5) (e6 : m' ((c.tc : Thread nD τ).loc main_arg6) = x6) (e7 : m' ((c.tc : Thread nD τ).loc main_arg7) = x7)
    (e8 : m' ((c.tc : Thread nD τ).loc main_arg8) = x8) (hadm : Admissible x0 x1 x2 x3 x4 x5 x6 x7 x8) :
    Cert.ReferenceIdeal.ValueP.res_main_v30 (F := Ideal) m' c
      = broadcastInDim S4096x1x64 ![0, 2] Facts₀.bcast_S4096x64_S4096x1x64_0_2
          (fun i : S4096x64.Idx => streamedOf x0 x1 x2 x3 x4 x5 x6 x7 x8 (i 0) (i 1)) := by
  rw [Cert.ReferenceIdeal.ReadP.val_main_v30_eq, e0, e1, e2, e3, e4, e5, e6, e7, e8]
  unfold Cert.ReferenceIdeal.ReadP.val_main_v30
  rw [val_main_v29_eq_direct]
  refine congrArg _ ?_
  funext i
  exact (streamedOf_eq_directOf _ _ _ _ _ _ _ _ _ hadm (i 0) (i 1)).symm

end Cert.ReferenceIdeal.RefValue

end
-- ==== Proof.PreFacts.lean ====
/-
  What the precondition says of the nine arguments, read out of its printed predicate.
-/
import proofs.«406999_j21242908246230_3_alg».proof.Pre_finite_inputs
import proofs.«406999_j21242908246230_3_alg».proof.Proof.Gen.Pre_finite_inputs
import proofs.«406999_j21242908246230_3_alg».proof.Proof.Spec
import Idealize.ShloMosaic.Lib.ReduceAll
import Idealize.ShloMosaic.Lib.StableHlo.Predicate

noncomputable section

namespace Cert.Pre_finite_inputs.Decode

open Idealize.ShloMosaic OnlineSoftmax

/-- The scalar shape has one index. -/
instance : Subsingleton S_.Idx := ⟨fun _ _ => funext fun d => d.elim0⟩

/-- The f32 pattern of +∞ denotes the top element. -/
theorem ofBits_inf : Ideal.ofBits .f32 0x7F800000#32 = (⊤ : EReal) := by simp [Ideal.ofBits, Ideal.ieee]

/-- |a| < +∞ says that a is a real number. -/
theorem real_of_abs_lt_inf (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | coe r => exact ⟨r, rfl⟩
  | top => simp [Ideal.cmp] at h

/-- A real a with 0 < a is a positive real. -/
theorem pos_of_gt_zero (a : EReal) (hr : ∃ r : ℝ, a = (r : EReal))
    (h : Ideal.cmp .ogt a (Ideal.ofBits .f32 0x00000000#32) = 1#1) : ∃ r : ℝ, 0 < r ∧ a = (r : EReal) := by
  obtain ⟨r, rfl⟩ := hr
  rw [Ideal.ofBits_zero_f32] at h
  have h' : decide ((0 : EReal) < (r : EReal)) = true := (StableHlo.Predicate.ofBool_eq_one_iff _).1 h
  exact ⟨r, by exact_mod_cast of_decide_eq_true h', rfl⟩

section Arrays

open Idealize.ShloMosaic.ValueIdx

variable {s : Shape} {axes : List (Fin s.rank)}

/-- Whole-array |x| < +∞: every entry is a real number. -/
theorem finite_of_all (x : FVec Ideal s .f32)
    (hb : S_.BroadcastsInDim s (![] : Fin 0 → Fin s.rank)) (hr : s.ReducesTo axes S_) (h0 : 0 < S_.numel)
    (h : Host.reduce IntOp.andi (cmpf .olt (Host.absf x) (broadcastInDim s ![] hb (constant S_ .f32 0x7F800000#32)))
      (constantI S_ 1 1#1) hr h0 ix0 = 1#1) : ∀ i, ∃ r : ℝ, x i = (r : EReal) := fun i =>
  real_of_abs_lt_inf (x i) (Host.reduce_andi_all _ _ hr h0 ix0 h i)

/-- Whole-array 0 < x on an array of reals: every entry is a positive real. -/
theorem positive_of_all (x : FVec Ideal s .f32) (hx : ∀ i, ∃ r : ℝ, x i = (r : EReal))
    (hb : S_.BroadcastsInDim s (![] : Fin 0 → Fin s.rank)) (hr : s.ReducesTo axes S_) (h0 : 0 < S_.numel)
    (h : Host.reduce IntOp.andi (cmpf .ogt x (broadcastInDim s ![] hb (constant S_ .f32 0x00000000#32)))
      (constantI S_ 1 1#1) hr h0 ix0 = 1#1) : ∀ i, ∃ r : ℝ, 0 < r ∧ x i = (r : EReal) := fun i =>
  pos_of_gt_zero (x i) (hx i) (Host.reduce_andi_all _ _ hr h0 ix0 h i)

/-- Whole-array (m = 0 or m = 1): every entry is the word 0 or the word 1. -/
theorem binary_of_all (m : IVec s 32)
    (hb : S_.BroadcastsInDim s (![] : Fin 0 → Fin s.rank)) (hr : s.ReducesTo axes S_) (h0 : 0 < S_.numel)
    (h : Host.reduce IntOp.andi (ori (cmpi .eq m (broadcastInDim s ![] hb (constantI S_ 32 0#32)))
        (cmpi .eq m (broadcastInDim s ![] hb (constantI S_ 32 1#32))))
      (constantI S_ 1 1#1) hr h0 ix0 = 1#1) : ∀ i, m i = 0#32 ∨ m i = 1#32 := fun i => by
  have e : IntOp.ori (IntOp.cmpi .eq (m i) 0#32) (IntOp.cmpi .eq (m i) 1#32) = 1#1 :=
    Host.reduce_andi_all _ _ hr h0 ix0 h i
  rcases IntOp.ori_eq_one.1 e with h1 | h1
  · exact Or.inl (IntOp.cmpi_eq.1 h1)
  · exact Or.inr (IntOp.cmpi_eq.1 h1)

end Arrays

open Idealize.ShloMosaic.ValueIdx

/-- The two ways of writing the index (p, q) of a rectangle agree. -/
theorem ij_eq_ix2 {n m : Nat} (p : Fin n) (q : Fin m) : StableHlo.Predicate.ij p q = ix2 p q := by
  funext d; match d with | ⟨0, _⟩ => rfl | ⟨1, _⟩ => rfl

/-- Every row's count of positive entries is positive, on a 0/1 array: every row holds a 1. -/
theorem row_of_all (m : IVec S4096x16384 32) (hm : ∀ i, m i = 0#32 ∨ m i = 1#32)
    (hb : S_.BroadcastsInDim S4096x16384 (![] : Fin 0 → Fin S4096x16384.rank))
    (hb1 : S_.BroadcastsInDim S4096 (![] : Fin 0 → Fin S4096.rank)) (hw : 1 < 32)
    (hred : S4096x16384.ReducesTo [1] S4096) (hr : S4096.ReducesTo [0] S_) (h0 : 0 < S_.numel)
    (h : Host.reduce IntOp.andi
      (cmpi .sgt
        (Host.reduce IntOp.addi (extui 32 (cmpi .sgt m (broadcastInDim S4096x16384 ![] hb (constantI S_ 32 0#32))) hw)
          (constantI S_ 32 0#32) hred h0)
        (broadcastInDim S4096 ![] hb1 (constantI S_ 32 0#32)))
      (constantI S_ 1 1#1) hr h0 ix0 = 1#1) : ∀ q : Fin 4096, ∃ c : Fin 16384, m (ix2 q c) = 1#32 := fun q => by
  have e : IntOp.cmpi .sgt
      (Host.reduce IntOp.addi (extui 32 (cmpi .sgt m (broadcastInDim S4096x16384 ![] hb (constantI S_ 32 0#32))) hw)
        (constantI S_ 32 0#32) hred h0 (ix1 q)) 0#32 = 1#1 :=
    Host.reduce_andi_all _ _ hr h0 ix0 h (ix1 q)
  have hc := StableHlo.Predicate.toNat_reduce_count_cols (n := 4096) (m := 16384) (by norm_num)
    (cmpi .sgt m (broadcastInDim S4096x16384 ![] hb (constantI S_ 32 0#32))) hw hred h0 (ix1 q)
  have hle : (Finset.univ.filter (fun c : Fin 16384 =>
      cmpi .sgt m (broadcastInDim S4096x16384 ![] hb (constantI S_ 32 0#32)) (StableHlo.Predicate.ij ((ix1 q) 0) c) = 1#1)).card
      ≤ 16384 := by
    simpa using Finset.card_le_univ (Finset.univ.filter (fun c : Fin 16384 =>
      cmpi .sgt m (broadcastInDim S4096x16384 ![] hb (constantI S_ 32 0#32)) (StableHlo.Predicate.ij ((ix1 q) 0) c) = 1#1))
  rw [StableHlo.Predicate.sgt_iff_toNat (by rw [hc]; omega) (by decide), hc] at e
  obtain ⟨c, hcm⟩ := Finset.card_pos.1 e
  have hbit : IntOp.cmpi .sgt (m (StableHlo.Predicate.ij q c)) 0#32 = 1#1 := (Finset.mem_filter.1 hcm).2
  refine ⟨c, ?_⟩
  rw [← ij_eq_ix2]
  rcases hm (StableHlo.Predicate.ij q c) with h1 | h1
  · rw [h1] at hbit; exact absurd hbit (by decide)
  · exact h1

/-- The predicate is a conjunction of eleven whole-array tests; each is read at an index. -/
theorem admissible_of_pre [Cert.Pre_finite_inputs.Facts]
    (x0 : (⟨2, ![16384, 128]⟩ : Shape).Idx → EReal) (x1 : (⟨2, ![16384, 64]⟩ : Shape).Idx → EReal)
    (x2 : (⟨2, ![4096, 128]⟩ : Shape).Idx → EReal) (x3 : (⟨2, ![4096, 16384]⟩ : Shape).Idx → EReal)
    (x4 : (⟨2, ![4096, 16384]⟩ : Shape).Idx → BitVec 32) (x5 : (⟨2, ![128, 64]⟩ : Shape).Idx → EReal)
    (x6 : (⟨1, ![64]⟩ : Shape).Idx → EReal) (x7 : (⟨2, ![128, 64]⟩ : Shape).Idx → EReal)
    (x8 : (⟨1, ![64]⟩ : Shape).Idx → EReal)
    (h : Cert.Pre_finite_inputs.fn (F := Ideal) x0 x1 x2 x3 x4 x5 x6 x7 x8 = (fun _ => 1#1)) :
    Admissible x0 x1 x2 x3 x4 x5 x6 x7 x8 := by
  have h0 := congrFun h ix0
  simp only [Cert.Pre_finite_inputs.fn, fn_part1, fn_part2, fn_part3, andi, IntOp.andi_eq_one] at h0
  obtain ⟨⟨⟨⟨⟨⟨⟨⟨⟨⟨h_0, h_1⟩, h_2⟩, h_3⟩, h_5⟩, h_6⟩, h_7⟩, h_8⟩, h_p⟩, h_b⟩, h_r⟩ := h0
  have fin3 := finite_of_all x3 _ _ _ h_3
  have bin4 := binary_of_all x4 _ _ _ h_b
  exact
    { fin0 := finite_of_all x0 _ _ _ h_0
      fin1 := finite_of_all x1 _ _ _ h_1
      fin2 := finite_of_all x2 _ _ _ h_2
      pos3 := positive_of_all x3 fin3 _ _ _ h_p
      bin4 := bin4
      row4 := row_of_all x4 bin4 _ _ _ _ _ _ h_r
      fin5 := finite_of_all x5 _ _ _ h_5
      fin6 := finite_of_all x6 _ _ _ h_6
      fin7 := finite_of_all x7 _ _ _ h_7
      fin8 := finite_of_all x8 _ _ _ h_8 }

end Cert.Pre_finite_inputs.Decode

end
-- ==== Proof.lean ====
/-
  A fused masked attention with a soft mask, streamed over column tiles with running maximum, denominator and
  numerator, against its direct form that adds the log of the soft mask, shifts by the row maximum and normalises.

  Under the precondition — every float entry a real number, every soft-mask entry positive, the hard mask 0/1 with
  at least one admitted column in every query row — the two results are one array of extended reals:
  with a row's admitted raw logits a, soft masks w and maximum M, the streamed form ends at
  (Σ e^{a−M} w y) / (Σ e^{a−M} w) whichever tile order the maximum was found in, and the direct form's terms
  e^{a + log w − mx} are the same terms times the positive constant e^{M−mx}, which cancels in the quotient.
  The kernel's finite stand-in for −∞ (the fill of masked-out logits) is read as −∞, as the direct form has it.
-/
import proofs.«406999_j21242908246230_3_alg».proof.Defs
import proofs.«406999_j21242908246230_3_alg».proof.Proof.Gen.Kernel
import proofs.«406999_j21242908246230_3_alg».proof.Proof.Gen.Kernel.Frame
import proofs.«406999_j21242908246230_3_alg».proof.Proof.Gen.KernelIdeal
import proofs.«406999_j21242908246230_3_alg».proof.Proof.Gen.KernelIdeal.Frame
import proofs.«406999_j21242908246230_3_alg».proof.Proof.Gen.ReferenceIdeal
import proofs.«406999_j21242908246230_3_alg».proof.Proof.Gen.Pre_finite_inputs
import proofs.«406999_j21242908246230_3_alg».proof.Proof.KerFinal
import proofs.«406999_j21242908246230_3_alg».proof.Proof.RefFinal
import proofs.«406999_j21242908246230_3_alg».proof.Proof.Glue
import proofs.«406999_j21242908246230_3_alg».proof.Proof.PreFacts
import Idealize.ShloMosaic.Adequacy
import Idealize.ShloMosaic.Init

noncomputable section

namespace Cert.Proof

open Idealize.ShloMosaic Idealize.SL.Sem OnlineSoftmax

/-- The word-level kernel runs and keeps its arguments. -/
theorem frame_k [Cert.Kernel.Facts] [Cert.Pre_finite_inputs.Facts] : Cert.frame_Kernel :=
  fun m ρ _ => Cert.Kernel.Gen.frame m ρ

/-- So does the kernel read over the extended reals. -/
theorem frame_ki [Cert.KernelIdeal.Facts] [Cert.Pre_finite_inputs.Facts] : Cert.frame_KernelIdeal :=
  fun m ρ _ => Cert.KernelIdeal.Gen.frame m ρ

/-- The reference's run, its result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.ValueP.run (F := Ideal) m ρ)

/-- The fill value of masked-out logits denotes −∞ by the table of named constants. -/
theorem preserves : Cert.preserves_Kernel_KernelIdeal :=
  IdealRules.named_const.statement Cert.KernelIdeal.κ "neg_big" .f32 0xFF333332#32 ⊥ rfl

/-- Both programs end at the streamed result of the nine arguments laid out as [4096, 1, 64]: the kernel by its
    point-by-point invariant, the reference because its direct form agrees with the streamed one on admissible data. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨_, Cert.KernelIdeal.KerValue.run m ρ, ?_⟩
  refine (θ_run Cert.ReferenceIdeal.defs _ _).mono (fun _ h c => ⟨(h c).1.trans ?_, (h c).2⟩)
    (Cert.ReferenceIdeal.ValueP.run (F := Ideal) m' ρ')
  have hadm := Cert.Pre_finite_inputs.Decode.admissible_of_pre _ _ _ _ _ _ _ _ _ (hpre c)
  refine (Cert.ReferenceIdeal.RefValue.res_eq_streamed m' c _ _ _ _ _ _ _ _ _ (hagree c).1 (hagree c).2.1 (hagree c).2.2.1
    (hagree c).2.2.2.1 (hagree c).2.2.2.2.1 (hagree c).2.2.2.2.2.1 (hagree c).2.2.2.2.2.2.1 (hagree c).2.2.2.2.2.2.2.1
    (hagree c).2.2.2.2.2.2.2.2 hadm).trans ?_
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
